-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x3200000 : Shape := ⟨2, ![2, 3200000]⟩
abbrev S12x64 : Shape := ⟨2, ![12, 64]⟩
abbrev S64 : Shape := ⟨1, ![64]⟩
abbrev S192x64 : Shape := ⟨2, ![192, 64]⟩
abbrev S192 : Shape := ⟨1, ![192]⟩
abbrev S1x64 : Shape := ⟨2, ![1, 64]⟩
abbrev S1 : Shape := ⟨1, ![1]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S192x64 .f32) (main_arg6 : FVec F S192 .f32) (main_arg7 : FVec F S192 .f32) (main_arg8 : FVec F S1x64 .f32) (main_arg9 : FVec F S1 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_arg9 main_v33

def fn {F : FTy → Type} [FloatOps F] (main_arg0 : FVec F S100000x12 .f32) (main_arg1 : IVec S2x3200000 32) (main_arg2 : FVec F S12x64 .f32) (main_arg3 : FVec F S64 .f32) (main_arg4 : FVec F S192x64 .f32) (main_arg5 : FVec F S192x64 .f32) (main_arg6 : FVec F S192 .f32) (main_arg7 : FVec F S192 .f32) (main_arg8 : FVec F S1x64 .f32) (main_arg9 : FVec F S1 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12x64 .f32 := Host.absf main_arg2
  let main_cst_0 : FVec F S_ .f32 := constant S_ .f32 0x7F800000#32
  let main_v5 : FVec F S12x64 .f32 := broadcastInDim S12x64 ![] bcast_S_S12x64 main_cst_0
  let main_v6 : IVec S12x64 1 := cmpf .olt main_v4 main_v5
  let main_c_1 : IVec S_ 1 := constantI S_ 1 1#1
  let main_v7 : IVec S_ 1 := (fun x v => Host.reduce IntOp.andi x v reducesTo_S12x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_arg7 main_arg8 main_arg9 main_v13 main_v16
-- ==== Kernel.lean ====
abbrev S100000x12 : Shape := ⟨2, ![100000, 12]⟩
abbrev S2x3200000 : Shape := ⟨2, ![2, 3200000]⟩
abbrev S12x64 : Shape := ⟨2, ![12, 64]⟩
abbrev S64 : Shape := ⟨1, ![64]⟩
abbrev S192x64 : Shape := ⟨2, ![192, 64]⟩
abbrev S192 : Shape := ⟨1, ![192]⟩
abbrev S1x64 : Shape := ⟨2, ![1, 64]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x12 : Shape := ⟨2, ![5000, 12]⟩
abbrev S5000x64 : Shape := ⟨2, ![5000, 64]⟩
abbrev S3300000x64 : Shape := ⟨2, ![3300000, 64]⟩
abbrev S64x192 : Shape := ⟨2, ![64, 192]⟩
abbrev S64x1 : Shape := ⟨2, ![64, 1]⟩
abbrev S1x192 : Shape := ⟨2, ![1, 192]⟩
abbrev S1x1 : Shape := ⟨2, ![1, 1]⟩
abbrev S100000x1 : Shape := ⟨2, ![100000, 1]⟩
abbrev S4000x64 : Shape := ⟨2, ![4000, 64]⟩
abbrev S4000x1 : Shape := ⟨2, ![4000, 1]⟩
abbrev S4000x192 : Shape := ⟨2, ![4000, 192]⟩

abbrev nBuf : Space → Nat
  | .hbm => 75
  | .vmem => 15
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S64x192, .f32⟩
  | .hbm, ⟨68, _⟩ => ⟨S64x1, .f32⟩
  | .hbm, ⟨69, _⟩ => ⟨S1x64, .f32⟩
  | .hbm, ⟨70, _⟩ => ⟨S1x192, .f32⟩
  | .hbm, ⟨71, _⟩ => ⟨S1x192, .f32⟩
  | .hbm, ⟨72, _⟩ => ⟨S1x1, .f32⟩
  | .hbm, ⟨73, _⟩ => ⟨S100000x1, .f32⟩
  | .hbm, ⟨74, _⟩ => ⟨S100000, .f32⟩
  | .local _ .vmem, ⟨0, _⟩ => ⟨S5000x12, .f32⟩
  | .local _ .vmem, ⟨1, _⟩ => ⟨S5000x12, .f32⟩
  | .local _ .vmem, ⟨2, _⟩ => ⟨S12x64, .f32⟩
  | .local _ .vmem, ⟨3, _⟩ => ⟨S5000x64, .f32⟩
  | .local _ .vmem, ⟨4, _⟩ => ⟨S5000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S64x192, .f32⟩
  | .local _ .vmem, ⟨9, _⟩ => ⟨S1x192, .f32⟩
  | .local _ .vmem, ⟨10, _⟩ => ⟨S1x192, .f32⟩
  | .local _ .vmem, ⟨11, _⟩ => ⟨S64x1, .f32⟩
  | .local _ .vmem, ⟨12, _⟩ => ⟨S1x1, .f32⟩
  | .local _ .vmem, ⟨13, _⟩ => ⟨S4000x1, .f32⟩
  | .local _ .vmem, ⟨14, _⟩ => ⟨S4000x1, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x12_S5000x12_0_0 : ∀ a, (![0, 0] : Fin 2 → Nat) a + S5000x12.size a ≤ S5000x12.size a
  h_S5000x12 : 0 < S5000x12.numel
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  transposes_S192x64_S64x192_1_0 : S192x64.Transposes [1, 0] S64x192
  transposes_S1x64_S64x1_1_0 : S1x64.Transposes [1, 0] S64x1
  shapeCasts_S64_S1x64 : S64.ShapeCasts S1x64
  shapeCasts_S192_S1x192 : S192.ShapeCasts S1x192
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4000x192 : S1x192.Broadcasts S4000x192
  slices_S4000x192_o0_0_S4000x64 : S4000x192.Slices ![0, 0] S4000x64
  slices_S1x192_o0_0_S1x64 : S1x192.Slices ![0, 0] S1x64
  slices_S4000x192_o0_64_S4000x64 : S4000x192.Slices ![0, 64] S4000x64
  slices_S1x192_o0_64_S1x64 : S1x192.Slices ![0, 64] S1x64
  slices_S4000x192_o0_128_S4000x64 : S4000x192.Slices ![0, 128] S4000x64
  slices_S1x192_o0_128_S1x64 : S1x192.Slices ![0, 128] S1x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x12_S12x64_S5000x64_1_0_0_1_n_n_wf : DotDims.WF S5000x12 S12x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x192_S4000x192_1_0_0_1_n_n_wf : DotDims.WF S4000x64 S64x192 S4000x192 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S100000x12.size a
  hwx0_0 : ∀ i : grid0.Coords, EltTy.bits .f32 = 32 ∨ (Rect.block (s := S100000x12) S5000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S100000x1.size a
  hwx1_7 : ∀ i : grid1.Coords, EltTy.bits .f32 = 32 ∨ (Rect.block (s := S100000x1) S4000x1.size (cc1_transform_7 i) (hinb1_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x192_S4000x192_1_0_0_1_n_n : DotDims S4000x64 S64x192 S4000x192 where
  lhsContracting := [1]
  rhsContracting := [0]
  lhsNonContracting := [0]
  rhsNonContracting := [1]
  lhsBatch := []
  rhsBatch := []
  wf := dot_S4000x64_S64x192_S4000x192_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S4000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x12 : Shape := ⟨2, ![100000, 12]⟩
abbrev S2x3200000 : Shape := ⟨2, ![2, 3200000]⟩
abbrev S12x64 : Shape := ⟨2, ![12, 64]⟩
abbrev S64 : Shape := ⟨1, ![64]⟩
abbrev S192x64 : Shape := ⟨2, ![192, 64]⟩
abbrev S192 : Shape := ⟨1, ![192]⟩
abbrev S1x64 : Shape := ⟨2, ![1, 64]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S64x192 : Shape := ⟨2, ![64, 192]⟩
abbrev S100000x192 : Shape := ⟨2, ![100000, 192]⟩
abbrev S1x192 : Shape := ⟨2, ![1, 192]⟩
abbrev S64x1 : Shape := ⟨2, ![64, 1]⟩
abbrev S100000x1 : Shape := ⟨2, ![100000, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S12x64, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S1x64, .f32⟩
  | .hbm, ⟨9, _⟩ => ⟨S1, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S64x192, .f32⟩
  | .hbm, ⟨71, _⟩ => ⟨S100000x192, .f32⟩
  | .hbm, ⟨72, _⟩ => ⟨S1x192, .f32⟩
  | .hbm, ⟨73, _⟩ => ⟨S100000x192, .f32⟩
  | .hbm, ⟨74, _⟩ => ⟨S100000x192, .f32⟩
  | .hbm, ⟨75, _⟩ => ⟨S100000x64, .f32⟩
  | .hbm, ⟨76, _⟩ => ⟨S64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S64x1, .f32⟩
  | .hbm, ⟨113, _⟩ => ⟨S100000x1, .f32⟩
  | .hbm, ⟨114, _⟩ => ⟨S1x1, .f32⟩
  | .hbm, ⟨115, _⟩ => ⟨S100000x1, .f32⟩
  | .hbm, ⟨116, _⟩ => ⟨S100000x1, .f32⟩
  | .hbm, ⟨117, _⟩ => ⟨S100000, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S192_S64_0 : S192.Slices ![0] S64
  slices_S100000x192_S100000x64_0_64 : S100000x192.Slices ![0, 64] S100000x64
  slices_S192_S64_64 : S192.Slices ![64] S64
  slices_S100000x192_S100000x64_0_128 : S100000x192.Slices ![0, 128] S100000x64
  slices_S192_S64_128 : S192.Slices ![128] S64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x12_S12x64_S100000x64_1_0_0_1_n_n_wf : DotDims.WF S100000x12 S12x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x192_S100000x192_1_0_0_1_n_n_wf : DotDims.WF S100000x64 S64x192 S100000x192 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.HostPre.lean ====
/-
  The kernel program's host operations before its first region, read back one stretch at a time. Everything these
  stretches compute depends on the edge list alone (source and destination lists with the self loops appended, the
  in-degrees, their inverse square roots, and the per-edge weight), and the reference computes the same values by the same
  operations: each buffer is stated equal to the reference's stage term of the same operation at the kernel's edge list.
  The three argument arrays the first region and the later stretch read are unchanged by these stretches.
-/
import proofs.«118636_j3959959847414_1_alg».proof.Proof.Gen.KernelIdeal.Frame
import proofs.«118636_j3959959847414_1_alg».proof.Proof.RefRead
import Idealize.ShloMosaic.Lib.StableHlo.Run

set_option maxRecDepth 16384

noncomputable section

namespace Cert.KernelIdeal.HostPre

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge list as the kernel program was launched with it. -/
abbrev edges (c : Dev nD) : (⟨S2x3200000, .i32⟩ : BufTy).Contents (Elt F) := m ((c : Thread nD τ).loc main_arg1)

/-! ## After the first stretch: sources, destinations, the degree test and the inverse square root of the degrees -/

theorem w1_v3 (c : Dev nD) : W1 m ρ c (Proc.devRef .tc main_v3) = Cert.ReferenceIdeal.ReadP.val_main_v3 (F := F) (edges m c) := by
  show StableHlo.after hostOps0 (W0 m ρ c) (Proc.devRef .tc main_v3) = _
  after_results
  rfl

theorem w1_v6 (c : Dev nD) : W1 m ρ c (Proc.devRef .tc main_v6) = Cert.ReferenceIdeal.ReadP.val_main_v6 (F := F) (edges m c) := by
  show StableHlo.after hostOps0 (W0 m ρ c) (Proc.devRef .tc main_v6) = _
  after_results
  rfl

theorem w1_v12 (c : Dev nD) : W1 m ρ c (Proc.devRef .tc main_v12) = Cert.ReferenceIdeal.ReadP.val_main_v12 (F := F) (edges m c) := by
  show StableHlo.after hostOps0 (W0 m ρ c) (Proc.devRef .tc main_v12) = _
  after_results
  rfl

theorem w1_v13 (c : Dev nD) : W1 m ρ c (Proc.devRef .tc main_v13) = Cert.ReferenceIdeal.ReadP.val_main_v13 (F := F) (edges m c) := by
  show StableHlo.after hostOps0 (W0 m ρ c) (Proc.devRef .tc main_v13) = _
  after_results
  rfl

theorem w1_cst2 (c : Dev nD) : W1 m ρ c (Proc.devRef .tc main_cst_2) = Cert.ReferenceIdeal.ReadP.val_main_cst_2 (F := F) := by
  show StableHlo.after hostOps0 (W0 m ρ c) (Proc.devRef .tc main_cst_2) = _
  after_results
  rfl

/-! ## After the inlined select: the inverse square roots, zero where the degree is not positive -/

theorem w2_v14 (c : Dev nD) : W2 m ρ c (Proc.devRef .tc main_v14) = Cert.ReferenceIdeal.ReadP.val_main_v14 (F := F) (edges m c) := by
  show StableHlo.after hostOps0_1 (W1 m ρ c) (Proc.devRef .tc main_v14) = _
  generalize hW : W1 m ρ c = W
  after_results_simp
  subst hW
  simp only [TRef.ofBuf, TRef.toBuf, cast_eq]
  rw [w1_v12, w1_v13, w1_cst2]
  rfl

theorem w2_v3 (c : Dev nD) : W2 m ρ c (Proc.devRef .tc main_v3) = Cert.ReferenceIdeal.ReadP.val_main_v3 (F := F) (edges m c) := by
  show StableHlo.after hostOps0_1 (W1 m ρ c) (Proc.devRef .tc main_v3) = _
  generalize hW : W1 m ρ c = W
  after_results_simp
  subst hW
  exact w1_v3 m ρ c

theorem w2_v6 (c : Dev nD) : W2 m ρ c (Proc.devRef .tc main_v6) = Cert.ReferenceIdeal.ReadP.val_main_v6 (F := F) (edges m c) := by
  show StableHlo.after hostOps0_1 (W1 m ρ c) (Proc.devRef .tc main_v6) = _
  generalize hW : W1 m ρ c = W
  after_results_simp
  subst hW
  exact w1_v6 m ρ c

/-! ## After the third stretch: the per-edge weight, and the lists it was gathered with -/

theorem w3_v29 (c : Dev nD) : W3 m ρ c (Proc.devRef .tc main_v29) = Cert.ReferenceIdeal.ReadP.val_main_v29 (F := F) (edges m c) := by
  show StableHlo.after hostOps0_2 (W2 m ρ c) (Proc.devRef .tc main_v29) = _
  generalize hW : W2 m ρ c = W
  after_results_simp
  subst hW
  rw [w2_v14, w2_v3, w2_v6]
  rfl

theorem w3_v3 (c : Dev nD) : W3 m ρ c (Proc.devRef .tc main_v3) = Cert.ReferenceIdeal.ReadP.val_main_v3 (F := F) (edges m c) := by
  show StableHlo.after hostOps0_2 (W2 m ρ c) (Proc.devRef .tc main_v3) = _
  generalize hW : W2 m ρ c = W
  after_results_simp
  subst hW
  exact w2_v3 m ρ c

theorem w3_v6 (c : Dev nD) : W3 m ρ c (Proc.devRef .tc main_v6) = Cert.ReferenceIdeal.ReadP.val_main_v6 (F := F) (edges m c) := by
  show StableHlo.after hostOps0_2 (W2 m ρ c) (Proc.devRef .tc main_v6) = _
  generalize hW : W2 m ρ c = W
  after_results_simp
  subst hW
  exact w2_v6 m ρ c

/-! ## The argument arrays are as launched when the first region is entered -/

theorem w3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem w3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem w3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem w3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

theorem w3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp

theorem w3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp

theorem w3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp

end Cert.KernelIdeal.HostPre

end
-- ==== Proof.Agg.lean ====
/-
  The aggregation step that both programs run on the host, as one function of the product array xw = x * W and the edge list:
  every edge (and a self loop per node) gathers its source node's row of xw, scales it by the symmetric normalisation
  1 / sqrt (deg src) * 1 / sqrt (deg dst) computed from the edge list alone, and the scaled rows are scatter-added at the
  destination nodes. Stated with the reference's own stage terms for everything that depends on the edge list only, so that
  the reference's aggregated features are this function of its matrix product by unfolding three definitions.
-/
import proofs.«118636_j3959959847414_1_alg».proof.Proof.RefRead

noncomputable section

namespace Cert.ReferenceIdeal.Agg

open Cert.ReferenceIdeal Cert.ReferenceIdeal.Gen Cert.ReferenceIdeal.ReadP
open Idealize.ShloMosaic Idealize.ShloMosaic.TcCoe Idealize.SL.Sem

variable {F : FTy → Type} [FloatOps F]

/-- Aggregated node features from the product array and the edge list: gather rows at the sources, scale by the edge weights,
    scatter-add at the destinations into zeros. -/
def agg (xw : (⟨S100000x64, .f32⟩ : BufTy).Contents (Elt F)) (x1 : (⟨S2x3200000, .i32⟩ : BufTy).Contents (Elt F)) :
    (⟨S100000x64, .f32⟩ : BufTy).Contents (Elt F) :=
  Host.scatterAdd scatter_S100000x64_S3300000x1_S3300000x64_1_0_0_1 (val_main_v41 (F := F)) (val_main_v42 (F := F) x1)
    (mulf (Host.gather gather_S100000x64_S3300000x1_S3300000x64_1_0_n_n_0_1_164 xw (val_main_v36 (F := F) x1))
      (val_main_v39 (F := F) x1))

/-- The reference's scatter-add result is the aggregation of its own matrix product. -/
theorem ref_agg (x0 : (⟨S100000x12, .f32⟩ : BufTy).Contents (Elt F)) (x1 : (⟨S2x3200000, .i32⟩ : BufTy).Contents (Elt F))
    (x2 : (⟨S12x64, .f32⟩ : BufTy).Contents (Elt F)) :
    val_main_v43 (F := F) x0 x1 x2 = agg (F := F) (val_main_v30 (F := F) x0 x2) x1 := by
  unfold val_main_v43 val_main_v40 val_main_v37 agg
  rfl

end Cert.ReferenceIdeal.Agg

end
-- ==== Proof.HostMid.lean ====
/-
  The kernel program's host operations between its two regions and after the second, read back at an abstract float family.
  Between the regions the program gathers rows of the first region's output at the sources, scales them by the per-edge
  weights and scatter-adds them at the destinations: the shared aggregation of that output; and it transposes the two weight
  matrices and views the four bias vectors as one-row arrays for the second region. After the second region the one-column
  result is viewed as a vector.
-/
import proofs.«118636_j3959959847414_1_alg».proof.Proof.HostPre
import proofs.«118636_j3959959847414_1_alg».proof.Proof.Agg

set_option maxRecDepth 16384

noncomputable section

namespace Cert.KernelIdeal.HostMid

open Cert.KernelIdeal Cert.KernelIdeal.Gen Cert.KernelIdeal.HostPre
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What the first region leaves untouched: every buffer that is not one of its three arrays -/

theorem w4_v3 (c : Dev nD) : W4 m ρ c (Proc.devRef .tc main_v3) = Cert.ReferenceIdeal.ReadP.val_main_v3 (F := F) (edges m c) :=
  (W4_of_ne m ρ c main_v3 (by decide)).trans (w3_v3 m ρ c)
theorem w4_v6 (c : Dev nD) : W4 m ρ c (Proc.devRef .tc main_v6) = Cert.ReferenceIdeal.ReadP.val_main_v6 (F := F) (edges m c) :=
  (W4_of_ne m ρ c main_v6 (by decide)).trans (w3_v6 m ρ c)
theorem w4_v29 (c : Dev nD) : W4 m ρ c (Proc.devRef .tc main_v29) = Cert.ReferenceIdeal.ReadP.val_main_v29 (F := F) (edges m c) :=
  (W4_of_ne m ρ c main_v29 (by decide)).trans (w3_v29 m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)
theorem w4_arg6 (c : Dev nD) : W4 m ρ c (Proc.devRef .tc main_arg6) = m ((c : Thread nD τ).loc main_arg6) :=
  (W4_of_ne m ρ c main_arg6 (by decide)).trans (w3_arg6 m ρ c)
theorem w4_arg7 (c : Dev nD) : W4 m ρ c (Proc.devRef .tc main_arg7) = m ((c : Thread nD τ).loc main_arg7) :=
  (W4_of_ne m ρ c main_arg7 (by decide)).trans (w3_arg7 m ρ c)
theorem w4_arg8 (c : Dev nD) : W4 m ρ c (Proc.devRef .tc main_arg8) = m ((c : Thread nD τ).loc main_arg8) :=
  (W4_of_ne m ρ c main_arg8 (by decide)).trans (w3_arg8 m ρ c)
theorem w4_arg9 (c : Dev nD) : W4 m ρ c (Proc.devRef .tc main_arg9) = m ((c : Thread nD τ).loc main_arg9) :=
  (W4_of_ne m ρ c main_arg9 (by decide)).trans (w3_arg9 m ρ c)

/-! ## The stretch between the regions -/

/-- The aggregated features the second region reads: the shared aggregation of the first region's output array. -/
theorem w5_v43 (c : Dev nD) :
    W5 m ρ c (Proc.devRef .tc main_v43) = Cert.ReferenceIdeal.Agg.agg (F := F) (W4 m ρ c (Proc.devRef .tc main_v30)) (edges m c) := by
  show StableHlo.after hostOps1 (W4 m ρ c) (Proc.devRef .tc main_v43) = _
  after_results_simp
  rw [w4_v3, w4_v6, w4_v29]
  rfl

/-- The input weights transposed, as the reference transposes them. -/
theorem w5_v44 (c : Dev nD) : W5 m ρ c (Proc.devRef .tc main_v44) = Cert.ReferenceIdeal.ReadP.val_main_v47 (F := F) (m ((c : Thread nD τ).loc main_arg4)) := by
  show StableHlo.after hostOps1 (W4 m ρ c) (Proc.devRef .tc main_v44) = _
  after_results_simp
  rw [w4_arg4]
  rfl

/-- The head's weights transposed, as the reference transposes them. -/
theorem w5_v45 (c : Dev nD) : W5 m ρ c (Proc.devRef .tc main_v45) = Cert.ReferenceIdeal.ReadP.val_main_v84 (F := F) (m ((c : Thread nD τ).loc main_arg8)) := by
  show StableHlo.after hostOps1 (W4 m ρ c) (Proc.devRef .tc main_v45) = _
  after_results_simp
  rw [w4_arg8]
  rfl

/-- The feature bias as a one-row array. -/
theorem w5_v46 (c : Dev nD) :
    W5 m ρ c (Proc.devRef .tc main_v46) = shapeCast S1x64 (m ((c : Thread nD τ).loc main_arg3)) shapeCasts_S64_S1x64 := by
  show StableHlo.after hostOps1 (W4 m ρ c) (Proc.devRef .tc main_v46) = _
  after_results_simp
  rw [w4_arg3]
  rfl

/-- The input bias as a one-row array. -/
theorem w5_v47 (c : Dev nD) :
    W5 m ρ c (Proc.devRef .tc main_v47) = shapeCast S1x192 (m ((c : Thread nD τ).loc main_arg6)) shapeCasts_S192_S1x192 := by
  show StableHlo.after hostOps1 (W4 m ρ c) (Proc.devRef .tc main_v47) = _
  after_results_simp
  rw [w4_arg6]
  rfl

/-- The recurrent bias as a one-row array. -/
theorem w5_v48 (c : Dev nD) :
    W5 m ρ c (Proc.devRef .tc main_v48) = shapeCast S1x192 (m ((c : Thread nD τ).loc main_arg7)) shapeCasts_S192_S1x192 := by
  show StableHlo.after hostOps1 (W4 m ρ c) (Proc.devRef .tc main_v48) = _
  after_results_simp
  rw [w4_arg7]
  rfl

/-- The head's bias as a one-by-one array. -/
theorem w5_v49 (c : Dev nD) :
    W5 m ρ c (Proc.devRef .tc main_v49) = shapeCast S1x1 (m ((c : Thread nD τ).loc main_arg9)) shapeCasts_S1_S1x1 := by
  show StableHlo.after hostOps1 (W4 m ρ c) (Proc.devRef .tc main_v49) = _
  after_results_simp
  rw [w4_arg9]
  rfl

/-! ## After the second region -/

/-- The program's result: the second region's one-column output viewed as a vector. -/
theorem w7_v51 (c : Dev nD) :
    W7 m ρ c (Proc.devRef .tc main_v51) = shapeCast S100000 (W6 m ρ c (Proc.devRef .tc main_v50)) shapeCasts_S100000x1_S100000 := by
  show StableHlo.after hostOps2 (W6 m ρ c) (Proc.devRef .tc main_v51) = _
  after_results_simp
  rfl

end Cert.KernelIdeal.HostMid

end
-- ==== Proof.Spec.lean ====
/-
  The mathematics both programs compute, as functions over literal shapes and the extended reals.

  A node's output is a one-step gated recurrent unit with zero initial state, followed by a linear head.
  Writing g for the node's row of aggregated features (64 entries), the gate pre-activations are
      a q = (sum over k of (g k + bg k) * wih q k) + bih q        (q ranges over 192 = 3 * 64),
  split in three bands of 64: reset (q = j), update (q = 64 + j), candidate (q = 128 + j).  With s the logistic function
      r j = s (a j + bhh j),   z j = s (a (64 + j) + bhh (64 + j)),
      c j = tanh (a (128 + j) + r j * bhh (128 + j)),   hid j = (1 - z j) * c j,
  and the output is (sum over j of hid j * wfc j) + bfc.
  The aggregated features themselves come from the product x * W (entry (n, h) is the sum over k of x n k * W k h)
  through a gather and a scatter-add that both programs share.
-/
import Idealize.ShloMosaic.PureOps.Ideal
import Idealize.ShloMosaic.Lib.ValueIdx

noncomputable section

namespace Cert.GcnGru

open Idealize.ShloMosaic Idealize.ShloMosaic.ValueIdx

/-- The f32 word of 1.0, as both programs spell the constant in `1 - z`. -/
abbrev one32 : EReal := Ideal.ofBits .f32 0x3F800000#32

/-- Band positions inside the 192 gate pre-activations. -/
abbrev lo (j : Fin 64) : Fin 192 := ⟨j.val, by omega⟩
abbrev mid (j : Fin 64) : Fin 192 := ⟨64 + j.val, by omega⟩
abbrev hi (j : Fin 64) : Fin 192 := ⟨128 + j.val, by omega⟩

/-- Entry (n, h) of the matrix product x * W. -/
def xwAt (x : FVec Ideal ⟨2, ![100000, 12]⟩ .f32) (w : FVec Ideal ⟨2, ![12, 64]⟩ .f32) (n : Fin 100000) (h : Fin 64) : EReal :=
  ∑ k : Fin 12, x (ix2 n k) * w (ix2 k h)

/-- The product x * W as an array. -/
def xwArr (x : FVec Ideal ⟨2, ![100000, 12]⟩ .f32) (w : FVec Ideal ⟨2, ![12, 64]⟩ .f32) : FVec Ideal ⟨2, ![100000, 64]⟩ .f32 :=
  fun i => xwAt x w (i 0) (i 1)

/-- Gate pre-activation q of one node: the biased feature row against row q of the input weights, plus the input bias. -/
def preAct (g bg : Fin 64 → EReal) (wih : Fin 192 → Fin 64 → EReal) (bih : Fin 192 → EReal) (q : Fin 192) : EReal :=
  (∑ k : Fin 64, (g k + bg k) * wih q k) + bih q

/-- Hidden unit j of one node after the single recurrent step from a zero state. -/
def hidden (g bg : Fin 64 → EReal) (wih : Fin 192 → Fin 64 → EReal) (bih bhh : Fin 192 → EReal) (j : Fin 64) : EReal :=
  (one32 - Ideal.logistic (preAct g bg wih bih (mid j) + bhh (mid j)))
    * Ideal.tanh (preAct g bg wih bih (hi j) + Ideal.logistic (preAct g bg wih bih (lo j) + bhh (lo j)) * bhh (hi j))

/-- One node's output: the hidden units against the head's weights, plus the head's bias. -/
def headAt (g bg : Fin 64 → EReal) (wih : Fin 192 → Fin 64 → EReal) (bih bhh : Fin 192 → EReal) (wfc : Fin 64 → EReal) (bfc : EReal) : EReal :=
  (∑ j : Fin 64, hidden g bg wih bih bhh j * wfc j) + bfc

/-- The head over the operand layout the second kernel is given: features [100000, 64], feature bias [1, 64], transposed
    input weights [64, 192], the two gate biases [1, 192], transposed head weights [64, 1], head bias [1, 1]. -/
def headArr (G : FVec Ideal ⟨2, ![100000, 64]⟩ .f32) (BG : FVec Ideal ⟨2, ![1, 64]⟩ .f32) (WT : FVec Ideal ⟨2, ![64, 192]⟩ .f32)
    (BIH BHH : FVec Ideal ⟨2, ![1, 192]⟩ .f32) (WFT : FVec Ideal ⟨2, ![64, 1]⟩ .f32) (BF : FVec Ideal ⟨2, ![1, 1]⟩ .f32) :
    FVec Ideal ⟨2, ![100000, 1]⟩ .f32 :=
  fun i => headAt (fun k => G (ix2 (i 0) k)) (fun k => BG (ix2 0 k)) (fun q k => WT (ix2 k q)) (fun q => BIH (ix2 0 q))
    (fun q => BHH (ix2 0 q)) (fun j => WFT (ix2 j 0)) (BF (ix2 0 0))

/-- The head over the reference's operand layout: feature bias [64], input weights [192, 64], gate biases [192], head weights
    [1, 64], head bias [1]; the result indexed by the node alone. -/
def headRef (G : FVec Ideal ⟨2, ![100000, 64]⟩ .f32) (bg : FVec Ideal ⟨1, ![64]⟩ .f32) (wih : FVec Ideal ⟨2, ![192, 64]⟩ .f32)
    (bih bhh : FVec Ideal ⟨1, ![192]⟩ .f32) (wfc : FVec Ideal ⟨2, ![1, 64]⟩ .f32) (bfc : FVec Ideal ⟨1, ![1]⟩ .f32) :
    FVec Ideal ⟨1, ![100000]⟩ .f32 :=
  fun i => headAt (fun k => G (ix2 (i 0) k)) (fun k => bg (ix1 k)) (fun q k => wih (ix2 q k)) (fun q => bih (ix1 q))
    (fun q => bhh (ix1 q)) (fun j => wfc (ix2 0 j)) (bfc (ix1 0))

end Cert.GcnGru

end
-- ==== Proof.XwArray.lean ====
import proofs.«118636_j3959959847414_1_alg».proof.Proof.Spec
import proofs.«118636_j3959959847414_1_alg».proof.Proof.Gen.KernelIdeal.Frame
import Idealize.ShloMosaic.Lib.Pipeline.Value
import Idealize.ShloMosaic.PureOps.Ideal.Laws

set_option maxRecDepth 16384

noncomputable section

namespace Cert.KernelIdeal.XwArray

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product of one block of rows with the weights, entry by entry -/

/-- Left operand's index at output entry `i` and contraction position `q`: row `i 0` … -/
theorem lhs_row (i : S5000x64.Idx) (q : dot_S5000x12_S12x64_S5000x64_1_0_0_1_n_n.contr.Idx) :
    (dot_S5000x12_S12x64_S5000x64_1_0_0_1_n_n.lhsIdx i q 0).val = (i 0).val := by
  unfold DotDims.lhsIdx
  rw [dif_neg (show ¬(0 : Fin S5000x12.rank) ∈ dot_S5000x12_S12x64_S5000x64_1_0_0_1_n_n.lhsBatch by decide), dif_pos (show (0 : Fin S5000x12.rank) ∈ dot_S5000x12_S12x64_S5000x64_1_0_0_1_n_n.lhsNonContracting by decide)]
  rfl
/-- … and column `q`. -/
theorem lhs_col (i : S5000x64.Idx) (q : dot_S5000x12_S12x64_S5000x64_1_0_0_1_n_n.contr.Idx) :
    (dot_S5000x12_S12x64_S5000x64_1_0_0_1_n_n.lhsIdx i q 1).val = (q ⟨0, by decide⟩).val :=
  dot_S5000x12_S12x64_S5000x64_1_0_0_1_n_n.lhsIdx_val_of_single rfl i q
/-- Right operand's index there: row `q` … -/
theorem rhs_row (i : S5000x64.Idx) (q : dot_S5000x12_S12x64_S5000x64_1_0_0_1_n_n.contr.Idx) :
    (dot_S5000x12_S12x64_S5000x64_1_0_0_1_n_n.rhsIdx i q 0).val = (q ⟨0, by decide⟩).val :=
  dot_S5000x12_S12x64_S5000x64_1_0_0_1_n_n.rhsIdx_val_of_single rfl i q
/-- … and column `i 1`. -/
theorem rhs_col (i : S5000x64.Idx) (q : dot_S5000x12_S12x64_S5000x64_1_0_0_1_n_n.contr.Idx) :
    (dot_S5000x12_S12x64_S5000x64_1_0_0_1_n_n.rhsIdx i q 1).val = (i 1).val := by
  unfold DotDims.rhsIdx
  rw [dif_neg (show ¬(1 : Fin S12x64.rank) ∈ dot_S5000x12_S12x64_S5000x64_1_0_0_1_n_n.rhsBatch by decide), dif_pos (show (1 : Fin S12x64.rank) ∈ dot_S5000x12_S12x64_S5000x64_1_0_0_1_n_n.rhsNonContracting by decide)]
  rfl

/-- Over the extended reals the body's stored value at entry (p, h) is the sum over the 12 shared positions of the
    block's row p against the weights' column h: the change of float format is the identity there and the product
    accumulates into zero. -/
theorem pay_apply (x0 : Vec Ideal S5000x12 .f32) (x1 : Vec Ideal S12x64 .f32) (p : Fin 5000) (h : Fin 64) :
    k0_pay1 (F := Ideal) x0 x1 (ix2 p h) = ∑ k : Fin 12, x0 (ix2 p k) * x1 (ix2 k h) := by
  unfold k0_pay1
  refine (Ideal.matmul_constant_zero_apply dot_S5000x12_S12x64_S5000x64_1_0_0_1_n_n none _ _ (ix2 p h)).trans ?_
  rw [← Equiv.sum_comp (ValueIdx.contrEquiv1 dot_S5000x12_S12x64_S5000x64_1_0_0_1_n_n 12 rfl rfl).symm]
  refine Finset.sum_congr rfl fun k _ => ?_
  have hk := ValueIdx.contrEquiv1_symm_val dot_S5000x12_S12x64_S5000x64_1_0_0_1_n_n 12 rfl rfl k
  have el : dot_S5000x12_S12x64_S5000x64_1_0_0_1_n_n.lhsIdx (ix2 p h) ((ValueIdx.contrEquiv1 dot_S5000x12_S12x64_S5000x64_1_0_0_1_n_n 12 rfl rfl).symm k) = ix2 p k := funext fun a => Fin.ext (by
    match a with
    | ⟨0, _⟩ => exact lhs_row _ _
    | ⟨1, _⟩ => exact (lhs_col _ _).trans hk)
  have er : dot_S5000x12_S12x64_S5000x64_1_0_0_1_n_n.rhsIdx (ix2 p h) ((ValueIdx.contrEquiv1 dot_S5000x12_S12x64_S5000x64_1_0_0_1_n_n 12 rfl rfl).symm k) = ix2 k h := funext fun a => Fin.ext (by
    match a with
    | ⟨0, _⟩ => exact (rhs_row _ _).trans hk
    | ⟨1, _⟩ => exact rhs_col _ _)
  rw [el, er]
  rfl

/-! ## The three index maps over the grid -/

theorem hz : (![0, 0] : Fin 2 → Nat) = fun _ => 0 := funext fun a => by fin_cases a <;> rfl

/-- At every grid point the block of rows read and the block of rows written have the same block index, which is the
    point's number; the weights' block index is zero, and so is every block index along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-! ## The input blocks as parts of the arrays -/

section Blocks
variable (V : (c : Dev nD) → (b : Ref sig .tc) → Buf (Elt Ideal) ((c : Thread nD τ).loc b))

/-- Row p of the block of rows read at point t is row (block index × 5000 + p) of the first array. -/
theorem rows_read (c : Dev nD) (t : Fin cfg0.N) (p : Fin 5000) (k : Fin 12) (n : Fin 100000)
    (hn : n.val = win0_2.index t (0 : Fin 2) * 5000 + p.val) :
    (iblk0 (F := Ideal) V c 0 t : Vec Ideal S5000x12 .f32) (ix2 p k) = (V c main_arg0 : Vec Ideal S100000x12 .f32) (ix2 n k) := by
  obtain ⟨e0, e1, -⟩ := idx_facts t
  show V c main_arg0 (((cfg0.win 0).blk t).view.emb (ix2 p k)) = V c main_arg0 (ix2 n k)
  refine congrArg (V c main_arg0) ?_
  funext a; apply Fin.ext
  match a with
  | ⟨0, _⟩ => show win0_0.index t (0 : Fin 2) * 5000 + 1 * p.val = n.val; omega
  | ⟨1, _⟩ => show win0_0.index t (1 : Fin 2) * 12 + 1 * k.val = k.val; omega

/-- The weights' block at every point is the whole second array. -/
theorem weights_read (c : Dev nD) (t : Fin cfg0.N) (k : Fin 12) (h : Fin 64) :
    (iblk0 (F := Ideal) V c 1 t : Vec Ideal S12x64 .f32) (ix2 k h) = (V c main_arg2 : Vec Ideal S12x64 .f32) (ix2 k h) := by
  obtain ⟨-, -, e2, e3, -⟩ := idx_facts t
  show V c main_arg2 (((cfg0.win 1).blk t).view.emb (ix2 k h)) = V c main_arg2 (ix2 k h)
  refine congrArg (V c main_arg2) ?_
  funext a; apply Fin.ext
  match a with
  | ⟨0, _⟩ => show win0_1.index t (0 : Fin 2) * 12 + 1 * k.val = k.val; omega
  | ⟨1, _⟩ => show win0_1.index t (1 : Fin 2) * 64 + 1 * h.val = h.val; omega

end Blocks

/-! ## One block of the product -/

/-- If a block of 5000 rows is rows b × 5000 … of an array A and the second operand is W, the body's stored value at an
    entry of the block is the entry of the product A W in the matching row of the array. -/
theorem block_entry (A : Vec Ideal S100000x12 .f32) (W : Vec Ideal S12x64 .f32)
    (x0 : Vec Ideal S5000x12 .f32) (x1 : Vec Ideal S12x64 .f32) (b : Nat)
    (h0 : ∀ (p : Fin 5000) (k : Fin 12) (n : Fin 100000), n.val = b * 5000 + p.val → x0 (ix2 p k) = A (ix2 n k))
    (h1 : ∀ (k : Fin 12) (h : Fin 64), x1 (ix2 k h) = W (ix2 k h))
    (y : S5000x64.Idx) (i : S100000x64.Idx) (hi0 : (i 0).val = b * 5000 + (y 0).val) (hi1 : (i 1).val = (y 1).val) :
    k0_pay1 (F := Ideal) x0 x1 y = Cert.GcnGru.xwArr A W i := by
  obtain ⟨p, h, rfl⟩ : ∃ (p : Fin 5000) (h : Fin 64), y = ix2 p h := ⟨y 0, y 1, eq_ix2 y⟩
  obtain ⟨n, h', rfl⟩ : ∃ (n : Fin 100000) (h' : Fin 64), i = ix2 n h' := ⟨i 0, i 1, eq_ix2 i⟩
  have hn : n.val = b * 5000 + p.val := hi0
  obtain rfl : h = h' := Fin.ext hi1.symm
  rw [pay_apply]
  show _ = ∑ k : Fin 12, A (ix2 n k) * W (ix2 k h)
  exact Finset.sum_congr rfl fun k _ => by rw [h0 p k n hn, h1 k h]

/-! ## From the blocks to the array -/

section Array
variable (V : (c : Dev nD) → (b : Ref sig .tc) → Buf (Elt Ideal) ((c : Thread nD τ).loc b))

/-- What point t writes back is block t of the product of the two arrays. -/
theorem flushed_eq (c : Dev nD) (t : Fin cfg0.N) :
    (dat0 (F := Ideal) V c).flushed 2 t
      = ((cfg0.win 2).blk t).view.read (Elt Ideal) (Cert.GcnGru.xwArr (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x12) hz, View.ld_unit_zero (S := S12x64) hz]
  funext j
  refine block_entry (V c main_arg0) (V c main_arg2) (iblk0 (F := Ideal) V c 0 t) (iblk0 (F := Ideal) V c 1 t)
    (win0_2.index t (0 : Fin 2)) (fun p k n hn => rows_read V c t p k n hn) (fun k h => weights_read V c t k h)
    ((cfg0.win 2).xinj (grid0.coords t) j) (((cfg0.win 2).blk t).view.emb j) ?_ ?_
  · show win0_2.index t (0 : Fin 2) * 5000 + 1 * (j 0).val = win0_2.index t (0 : Fin 2) * 5000 + (j 0).val
    omega
  · obtain ⟨-, -, -, -, -, e5⟩ := idx_facts t
    show win0_2.index t (1 : Fin 2) * 64 + 1 * (j 1).val = (j 1).val
    omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the output array lies in the block of the point numbered by its row divided by 5000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

end Array

/-- After the first region every entry of its output array is the matching entry of the product of the two arrays the
    region found in its input windows. -/
theorem xw_array (V : (c : Dev nD) → (b : Ref sig .tc) → Buf (Elt Ideal) ((c : Thread nD τ).loc b)) (c : Dev nD) :
    (dat0 (F := Ideal) V c).arrAt 2 cfg0.N = Cert.GcnGru.xwArr (V c main_arg0) (V c main_arg2) :=
  (dat0 (F := Ideal) V c).arrAt_eq_of_cover 2 (Cert.GcnGru.xwArr (V c main_arg0) (V c main_arg2))
    (fun t _ => flushed_eq V c t) covered

end Cert.KernelIdeal.XwArray

end
-- ==== Proof.HeadPayload.lean ====
import proofs.«118636_j3959959847414_1_alg».proof.Proof.Spec
import proofs.«118636_j3959959847414_1_alg».proof.Proof.Gen.KernelIdeal.Skeleton
import Idealize.ShloMosaic.Lib.Pipeline.Value
import Idealize.ShloMosaic.Lib.ValueLayout
import Idealize.ShloMosaic.PureOps.Ideal.Laws

set_option maxRecDepth 16384

noncomputable section

namespace Cert.KernelIdeal.HeadPayload

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two matrix products read at an index

Both contract the second axis of the left operand with the first axis of the right one, 64 terms, into a zero accumulator:
entry (p, c) is the sum over k of left (p, k) times right (k, c). -/

theorem gate_lhs_0 (i : S4000x192.Idx) (q : dot_S4000x64_S64x192_S4000x192_1_0_0_1_n_n.contr.Idx) :
    (dot_S4000x64_S64x192_S4000x192_1_0_0_1_n_n.lhsIdx i q 0).val = (i 0).val := by
  unfold DotDims.lhsIdx
  rw [dif_neg (show ¬(0 : Fin S4000x64.rank) ∈ dot_S4000x64_S64x192_S4000x192_1_0_0_1_n_n.lhsBatch by decide), dif_pos (show (0 : Fin S4000x64.rank) ∈ dot_S4000x64_S64x192_S4000x192_1_0_0_1_n_n.lhsNonContracting by decide)]
  rfl
theorem gate_lhs_1 (i : S4000x192.Idx) (q : dot_S4000x64_S64x192_S4000x192_1_0_0_1_n_n.contr.Idx) :
    (dot_S4000x64_S64x192_S4000x192_1_0_0_1_n_n.lhsIdx i q 1).val = (q ⟨0, by decide⟩).val :=
  dot_S4000x64_S64x192_S4000x192_1_0_0_1_n_n.lhsIdx_val_of_single rfl i q
theorem gate_rhs_0 (i : S4000x192.Idx) (q : dot_S4000x64_S64x192_S4000x192_1_0_0_1_n_n.contr.Idx) :
    (dot_S4000x64_S64x192_S4000x192_1_0_0_1_n_n.rhsIdx i q 0).val = (q ⟨0, by decide⟩).val :=
  dot_S4000x64_S64x192_S4000x192_1_0_0_1_n_n.rhsIdx_val_of_single rfl i q
theorem gate_rhs_1 (i : S4000x192.Idx) (q : dot_S4000x64_S64x192_S4000x192_1_0_0_1_n_n.contr.Idx) :
    (dot_S4000x64_S64x192_S4000x192_1_0_0_1_n_n.rhsIdx i q 1).val = (i 1).val := by
  unfold DotDims.rhsIdx
  rw [dif_neg (show ¬(1 : Fin S64x192.rank) ∈ dot_S4000x64_S64x192_S4000x192_1_0_0_1_n_n.rhsBatch by decide), dif_pos (show (1 : Fin S64x192.rank) ∈ dot_S4000x64_S64x192_S4000x192_1_0_0_1_n_n.rhsNonContracting by decide)]
  rfl

/-- The product against the input weights: entry (p, c) of a [4000, 64] by [64, 192] product into zeros. -/
theorem gateProd_at (l : FVec Ideal S4000x64 .bf16) (r : FVec Ideal S64x192 .bf16) (p : Fin 4000) (c : Fin 192) :
    matmul dot_S4000x64_S64x192_S4000x192_1_0_0_1_n_n none l r (constant (F := Ideal) S4000x192 .f32 0x00000000#32) (ix2 p c)
      = ∑ k : Fin 64, l (ix2 p k) * r (ix2 k c) := by
  refine (Ideal.matmul_constant_zero_apply dot_S4000x64_S64x192_S4000x192_1_0_0_1_n_n none l r (ix2 p c)).trans ?_
  rw [← Equiv.sum_comp (contrEquiv1 dot_S4000x64_S64x192_S4000x192_1_0_0_1_n_n 64 rfl rfl).symm]
  refine Finset.sum_congr rfl fun k _ => ?_
  have hk := contrEquiv1_symm_val dot_S4000x64_S64x192_S4000x192_1_0_0_1_n_n 64 rfl rfl k
  have el : dot_S4000x64_S64x192_S4000x192_1_0_0_1_n_n.lhsIdx (ix2 p c) ((contrEquiv1 dot_S4000x64_S64x192_S4000x192_1_0_0_1_n_n 64 rfl rfl).symm k) = ix2 p k := funext fun a => Fin.ext (by
    match a with
    | ⟨0, _⟩ => exact gate_lhs_0 _ _
    | ⟨1, _⟩ => exact (gate_lhs_1 _ _).trans hk)
  have er : dot_S4000x64_S64x192_S4000x192_1_0_0_1_n_n.rhsIdx (ix2 p c) ((contrEquiv1 dot_S4000x64_S64x192_S4000x192_1_0_0_1_n_n 64 rfl rfl).symm k) = ix2 k c := funext fun a => Fin.ext (by
    match a with
    | ⟨0, _⟩ => exact (gate_rhs_0 _ _).trans hk
    | ⟨1, _⟩ => exact gate_rhs_1 _ _)
  rw [el, er]

theorem head_lhs_0 (i : S4000x1.Idx) (q : dot_S4000x64_S64x1_S4000x1_1_0_0_1_n_n.contr.Idx) :
    (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem head_lhs_1 (i : S4000x1.Idx) (q : dot_S4000x64_S64x1_S4000x1_1_0_0_1_n_n.contr.Idx) :
    (dot_S4000x64_S64x1_S4000x1_1_0_0_1_n_n.lhsIdx i q 1).val = (q ⟨0, by decide⟩).val :=
  dot_S4000x64_S64x1_S4000x1_1_0_0_1_n_n.lhsIdx_val_of_single rfl i q
theorem head_rhs_0 (i : S4000x1.Idx) (q : dot_S4000x64_S64x1_S4000x1_1_0_0_1_n_n.contr.Idx) :
    (dot_S4000x64_S64x1_S4000x1_1_0_0_1_n_n.rhsIdx i q 0).val = (q ⟨0, by decide⟩).val :=
  dot_S4000x64_S64x1_S4000x1_1_0_0_1_n_n.rhsIdx_val_of_single rfl i q
theorem head_rhs_1 (i : S4000x1.Idx) (q : dot_S4000x64_S64x1_S4000x1_1_0_0_1_n_n.contr.Idx) :
    (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- The product against the head's weights: entry (p, c) of a [4000, 64] by [64, 1] product into zeros. -/
theorem headProd_at (l : FVec Ideal S4000x64 .bf16) (r : FVec Ideal S64x1 .bf16) (p : Fin 4000) (c : Fin 1) :
    matmul dot_S4000x64_S64x1_S4000x1_1_0_0_1_n_n none l r (constant (F := Ideal) S4000x1 .f32 0x00000000#32) (ix2 p c)
      = ∑ k : Fin 64, l (ix2 p k) * r (ix2 k c) := by
  refine (Ideal.matmul_constant_zero_apply dot_S4000x64_S64x1_S4000x1_1_0_0_1_n_n none l r (ix2 p c)).trans ?_
  rw [← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p c) ((contrEquiv1 dot_S4000x64_S64x1_S4000x1_1_0_0_1_n_n 64 rfl rfl).symm k) = ix2 p k := funext fun a => Fin.ext (by
    match a with
    | ⟨0, _⟩ => exact head_lhs_0 _ _
    | ⟨1, _⟩ => exact (head_lhs_1 _ _).trans hk)
  have er : dot_S4000x64_S64x1_S4000x1_1_0_0_1_n_n.rhsIdx (ix2 p c) ((contrEquiv1 dot_S4000x64_S64x1_S4000x1_1_0_0_1_n_n 64 rfl rfl).symm k) = ix2 k c := funext fun a => Fin.ext (by
    match a with
    | ⟨0, _⟩ => exact (head_rhs_0 _ _).trans hk
    | ⟨1, _⟩ => exact head_rhs_1 _ _)
  rw [el, er]

/-! ## The gate pre-activations -/

/-- The block's 192 gate pre-activations per row: the rows of the feature block plus the feature bias, against the input
    weights, plus the input bias (the payload's first fourteen operations). -/
def gates (x0 : Vec Ideal S4000x64 .f32) (x1 : Vec Ideal S1x64 .f32) (x2 : Vec Ideal S64x192 .f32) (x3 : Vec Ideal S1x192 .f32) :
    FVec Ideal S4000x192 .f32 :=
  addf
    (matmul dot_S4000x64_S64x192_S4000x192_1_0_0_1_n_n none
      (truncf .bf16 (addf (shapeCast S4000x64 x0 shapeCasts_S4000x64_S4000x64)
        (broadcastTo S4000x64 (shapeCast S1x64 x1 shapeCasts_S1x64_S1x64) broadcasts_S1x64_S4000x64)) bitsLt_bf16_f32)
      (truncf .bf16 (shapeCast S64x192 x2 shapeCasts_S64x192_S64x192) bitsLt_bf16_f32)
      (constant (F := Ideal) S4000x192 .f32 0x00000000#32))
    (broadcastTo S4000x192 (shapeCast S1x192 x3 shapeCasts_S1x192_S1x192) broadcasts_S1x192_S4000x192)

/-- Row p, column q of the gate pre-activations is the specification's pre-activation q of row p. -/
theorem gates_at (x0 : Vec Ideal S4000x64 .f32) (x1 : Vec Ideal S1x64 .f32) (x2 : Vec Ideal S64x192 .f32) (x3 : Vec Ideal S1x192 .f32)
    (p : Fin 4000) (q : Fin 192) :
    gates x0 x1 x2 x3 (ix2 p q)
      = Cert.GcnGru.preAct (fun k => x0 (ix2 p k)) (fun k => x1 (ix2 0 k)) (fun q k => x2 (ix2 k q)) (fun q => x3 (ix2 0 q)) q := by
  unfold gates Cert.GcnGru.preAct
  rw [shapeCast_self, shapeCast_self, shapeCast_self, shapeCast_self]
  refine (addf_apply _ _ _).trans ?_
  rw [gateProd_at, broadcastTo_1b_ab_apply]
  refine congrArg (· + x3 (ix2 0 q)) (Finset.sum_congr rfl fun k _ => ?_)
  show (x0 (ix2 p k) + broadcastTo S4000x64 x1 broadcasts_S1x64_S4000x64 (ix2 p k)) * x2 (ix2 k q) = _
  rw [broadcastTo_1b_ab_apply]

/-! ## The hidden units -/

/-- One band of 64 of the second gate bias, broadcast over the rows, read at (p, j): the bias at column k = o + j. -/
theorem biasBand_at (o : Nat) (x4 : Vec Ideal S1x192 .f32) (h : S1x192.Slices ![0, o] S1x64) (p : Fin 4000) (j : Fin 64)
    (k : Fin 192) (hk : k.val = o + j.val) :
    broadcastTo S4000x64 (extractStridedSlice S1x64 ![0, o] (shapeCast S1x192 x4 shapeCasts_S1x192_S1x192) h)
      broadcasts_S1x64_S4000x64 (ix2 p j) = x4 (ix2 0 k) := by
  rw [shapeCast_self]
  exact (broadcastTo_1b_ab_apply _ _ p j).trans (slice2_axis1_apply o x4 h 0 j k hk)

/-- The block's hidden units from its gate pre-activations g and the second gate bias: the three bands of g and of the bias,
    the two logistic gates, the candidate, and (1 - z) * candidate (operations sixteen to thirty-five of the payload). -/
def hid (g : FVec Ideal S4000x192 .f32) (x4 : Vec Ideal S1x192 .f32) : FVec Ideal S4000x64 .f32 :=
  mulf
    (subf (broadcast S4000x64 (Scalar.ofBits (F := Ideal) .f32 0x3F800000#32))
      (logistic (addf (extractStridedSlice S4000x64 ![0, 64] g slices_S4000x192_o0_64_S4000x64)
        (broadcastTo S4000x64 (extractStridedSlice S1x64 ![0, 64] (shapeCast S1x192 x4 shapeCasts_S1x192_S1x192)
          slices_S1x192_o0_64_S1x64) broadcasts_S1x64_S4000x64))))
    (tanh (addf (extractStridedSlice S4000x64 ![0, 128] g slices_S4000x192_o0_128_S4000x64)
      (mulf
        (logistic (addf (extractStridedSlice S4000x64 ![0, 0] g slices_S4000x192_o0_0_S4000x64)
          (broadcastTo S4000x64 (extractStridedSlice S1x64 ![0, 0] (shapeCast S1x192 x4 shapeCasts_S1x192_S1x192)
            slices_S1x192_o0_0_S1x64) broadcasts_S1x64_S4000x64)))
        (broadcastTo S4000x64 (extractStridedSlice S1x64 ![0, 128] (shapeCast S1x192 x4 shapeCasts_S1x192_S1x192)
          slices_S1x192_o0_128_S1x64) broadcasts_S1x64_S4000x64))))

/-- Hidden unit j of row p, from the row's pre-activations at the three band positions of j. -/
theorem hid_at (g : FVec Ideal S4000x192 .f32) (x4 : Vec Ideal S1x192 .f32) (p : Fin 4000) (j : Fin 64) :
    hid g x4 (ix2 p j)
      = (Cert.GcnGru.one32 - Ideal.logistic (g (ix2 p (Cert.GcnGru.mid j)) + x4 (ix2 0 (Cert.GcnGru.mid j))))
          * Ideal.tanh (g (ix2 p (Cert.GcnGru.hi j))
              + Ideal.logistic (g (ix2 p (Cert.GcnGru.lo j)) + x4 (ix2 0 (Cert.GcnGru.lo j))) * x4 (ix2 0 (Cert.GcnGru.hi j))) := by
  have g0 := slice2_axis1_apply 0 g slices_S4000x192_o0_0_S4000x64 p j (Cert.GcnGru.lo j) (Nat.zero_add _).symm
  have g1 := slice2_axis1_apply 64 g slices_S4000x192_o0_64_S4000x64 p j (Cert.GcnGru.mid j) rfl
  have g2 := slice2_axis1_apply 128 g slices_S4000x192_o0_128_S4000x64 p j (Cert.GcnGru.hi j) rfl
  have b0 := biasBand_at 0 x4 slices_S1x192_o0_0_S1x64 p j (Cert.GcnGru.lo j) (Nat.zero_add _).symm
  have b1 := biasBand_at 64 x4 slices_S1x192_o0_64_S1x64 p j (Cert.GcnGru.mid j) rfl
  have b2 := biasBand_at 128 x4 slices_S1x192_o0_128_S1x64 p j (Cert.GcnGru.hi j) rfl
  unfold hid
  show (Ideal.ofBits .f32 0x3F800000#32
        - Ideal.logistic (extractStridedSlice S4000x64 ![0, 64] g slices_S4000x192_o0_64_S4000x64 (ix2 p j)
            + broadcastTo S4000x64 (extractStridedSlice S1x64 ![0, 64] (shapeCast S1x192 x4 shapeCasts_S1x192_S1x192)
                slices_S1x192_o0_64_S1x64) broadcasts_S1x64_S4000x64 (ix2 p j)))
      * Ideal.tanh (extractStridedSlice S4000x64 ![0, 128] g slices_S4000x192_o0_128_S4000x64 (ix2 p j)
          + Ideal.logistic (extractStridedSlice S4000x64 ![0, 0] g slices_S4000x192_o0_0_S4000x64 (ix2 p j)
              + broadcastTo S4000x64 (extractStridedSlice S1x64 ![0, 0] (shapeCast S1x192 x4 shapeCasts_S1x192_S1x192)
                  slices_S1x192_o0_0_S1x64) broadcasts_S1x64_S4000x64 (ix2 p j))
            * broadcastTo S4000x64 (extractStridedSlice S1x64 ![0, 128] (shapeCast S1x192 x4 shapeCasts_S1x192_S1x192)
                slices_S1x192_o0_128_S1x64) broadcasts_S1x64_S4000x64 (ix2 p j)) = _
  rw [g0, g1, g2, b0, b1, b2]

/-! ## The stored value -/

/-- The payload of the second product is that product of the hidden units against the head's weights. -/
theorem pay2_eq (x0 : Vec Ideal S4000x64 .f32) (x1 : Vec Ideal S1x64 .f32) (x2 : Vec Ideal S64x192 .f32)
    (x3 x4 : Vec Ideal S1x192 .f32) (x5 : Vec Ideal S64x1 .f32) :
    k1_pay2 (F := Ideal) x0 x1 x2 x3 x4 x5
      = matmul dot_S4000x64_S64x1_S4000x1_1_0_0_1_n_n none
          (truncf .bf16 (hid (gates x0 x1 x2 x3) x4) bitsLt_bf16_f32)
          (truncf .bf16 (shapeCast S64x1 x5 shapeCasts_S64x1_S64x1) bitsLt_bf16_f32)
          (constant (F := Ideal) S4000x1 .f32 0x00000000#32) := rfl

/-- The stored block adds the head's bias to every row. -/
theorem pay1_at (v : FVec Ideal S4000x1 .f32) (x6 : Vec Ideal S1x1 .f32) (p : Fin 4000) :
    k1_pay1 (F := Ideal) v x6 (ix2 p 0) = v (ix2 p 0) + x6 (ix2 0 0) := by
  unfold k1_pay1
  rw [shapeCast_self]
  refine (addf_apply _ _ _).trans ?_
  rw [broadcastTo_1b_ab_apply]

/-- The second kernel's stored value at row p (its only column), from the seven input blocks: the head of the gated unit on
    row p of the feature block. -/
theorem pay_at (x0 : Vec Ideal S4000x64 .f32) (x1 : Vec Ideal S1x64 .f32) (x2 : Vec Ideal S64x192 .f32)
    (x3 x4 : Vec Ideal S1x192 .f32) (x5 : Vec Ideal S64x1 .f32) (x6 : Vec Ideal S1x1 .f32) (p : Fin 4000) :
    k1_pay1 (F := Ideal) (k1_pay2 (F := Ideal) x0 x1 x2 x3 x4 x5) x6 (ix2 p 0)
      = Cert.GcnGru.headAt (fun k => x0 (ix2 p k)) (fun k => x1 (ix2 0 k)) (fun q k => x2 (ix2 k q)) (fun q => x3 (ix2 0 q))
          (fun q => x4 (ix2 0 q)) (fun j => x5 (ix2 j 0)) (x6 (ix2 0 0)) := by
  rw [pay1_at, pay2_eq, headProd_at]
  unfold Cert.GcnGru.headAt
  refine congrArg (· + x6 (ix2 0 0)) (Finset.sum_congr rfl fun j _ => ?_)
  show hid (gates x0 x1 x2 x3) x4 (ix2 p j) * shapeCast S64x1 x5 shapeCasts_S64x1_S64x1 (ix2 j 0) = _
  rw [shapeCast_self, hid_at]
  unfold Cert.GcnGru.hidden
  simp only [gates_at]

end Cert.KernelIdeal.HeadPayload

end
-- ==== Proof.HeadArray.lean ====
/-
  From the second region's blocks to its whole output array.

  The region runs over 25 grid points.  Point t is given rows 4000 t, ..., 4000 t + 3999 of the feature array (row p of its
  block is row 4000 t + p of the array) and, whole, the six small arrays of weights and biases (their blocks sit at block
  index 0 on both axes, so each block is its array).  What the point stores at row p of its output block is the head of the
  gated unit on row p of the feature block, and the block goes back to rows 4000 t, ..., 4000 t + 3999 of the output array.
  So what point t writes back is block t of ONE function of the whole arrays, the head at every node; and since row r of the
  output lies in the block of point r / 4000, the 25 blocks tile the array, which therefore ends holding that function.
-/
import proofs.«118636_j3959959847414_1_alg».proof.Proof.Spec
import proofs.«118636_j3959959847414_1_alg».proof.Proof.Gen.KernelIdeal.Frame
import proofs.«118636_j3959959847414_1_alg».proof.Proof.HeadPayload
import Idealize.ShloMosaic.Lib.Pipeline.Value

set_option maxRecDepth 16384

noncomputable section

namespace Cert.KernelIdeal.HeadArray

open Cert.KernelIdeal Cert.KernelIdeal.Gen
open Idealize.ShloMosaic Idealize.ShloMosaic.TcCoe Idealize.ShloMosaic.ValueIdx Idealize.SL.Sem
open Idealize.ShloMosaic.Pipeline (Dat Cfg Window)

section Blocks

variable (V : (c : Dev nD) → (b : Ref sig .tc) → Buf (Elt Ideal) ((c : Thread nD τ).loc b))

/-- Both offsets of a whole-block rectangle are zero. -/
theorem zero_offsets : (![0, 0] : Fin 2 → Nat) = fun _ => 0 := funext fun a => by fin_cases a <;> rfl

/-- The block index of each window at grid point t, on both axes: the feature window and the output window sit at block
    (t, 0), the six small windows at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The feature window: 4000 rows of the feature array per grid point -/

/-- The feature block at grid point t, and the feature array, at their literal shapes. -/
abbrev featBlk (c : Dev nD) (t : Fin cfg1.N) : Vec Ideal S4000x64 .f32 := iblk1 V c 0 t
abbrev featArr (c : Dev nD) : Vec Ideal S100000x64 .f32 := V c main_v43

/-- Entry (p, k) of the feature block at point t is entry (4000 t + p, k) of the feature array. -/
theorem featBlk_apply (c : Dev nD) (t : Fin cfg1.N) (x : S4000x64.Idx) (i : S100000x64.Idx)
    (h0 : (i 0).val = 4000 * t.val + (x 0).val) (h1 : (i 1).val = (x 1).val) :
    featBlk V c t x = featArr V c i := by
  obtain ⟨e00, e01, -⟩ := block_indices t
  unfold featBlk featArr iblk1
  rw [View.read_apply]
  show V c main_v43 _ = V c main_v43 _
  refine congrArg _ ?_
  funext a
  apply Fin.ext
  match a with
  | ⟨0, _⟩ => show win1_0.index t (0 : Fin 2) * 4000 + 1 * (x 0).val = (i 0).val; rw [e00, h0]; omega
  | ⟨1, _⟩ => show win1_0.index t (1 : Fin 2) * 64 + 1 * (x 1).val = (i 1).val; rw [e01, h1]; omega

/-! ## The six small windows: each block is its whole array, at every grid point -/

/-- The feature bias [1, 64]: its block at grid point t, and its array. -/
abbrev featBiasBlk (c : Dev nD) (t : Fin cfg1.N) : Vec Ideal S1x64 .f32 := iblk1 V c 1 t
abbrev featBiasArr (c : Dev nD) : Vec Ideal S1x64 .f32 := V c main_v46

/-- The block is the array: the block index is zero on both axes and the block has the array's extents. -/
theorem featBiasBlk_eq (c : Dev nD) (t : Fin cfg1.N) : featBiasBlk V c t = featBiasArr V c := by
  obtain ⟨-, -, e0, e1, -, -, -, -, -, -, -, -, -, -, -⟩ := block_indices t
  funext x
  unfold featBiasBlk featBiasArr iblk1
  rw [View.read_apply]
  show V c main_v46 _ = V c main_v46 _
  refine congrArg _ ?_
  funext a
  apply Fin.ext
  match a with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

/-- The transposed input weights [64, 192]: its block at grid point t, and its array. -/
abbrev inWBlk (c : Dev nD) (t : Fin cfg1.N) : Vec Ideal S64x192 .f32 := iblk1 V c 2 t
abbrev inWArr (c : Dev nD) : Vec Ideal S64x192 .f32 := V c main_v44

/-- The block is the array: the block index is zero on both axes and the block has the array's extents. -/
theorem inWBlk_eq (c : Dev nD) (t : Fin cfg1.N) : inWBlk V c t = inWArr V c := by
  obtain ⟨-, -, -, -, e0, e1, -, -, -, -, -, -, -, -, -⟩ := block_indices t
  funext x
  unfold inWBlk inWArr iblk1
  rw [View.read_apply]
  show V c main_v44 _ = V c main_v44 _
  refine congrArg _ ?_
  funext a
  apply Fin.ext
  match a with
  | ⟨0, _⟩ => show win1_2.index t (0 : Fin 2) * 64 + 1 * (x 0).val = (x 0).val; rw [e0]; omega
  | ⟨1, _⟩ => show win1_2.index t (1 : Fin 2) * 192 + 1 * (x 1).val = (x 1).val; rw [e1]; omega

/-- The input-side gate bias [1, 192]: its block at grid point t, and its array. -/
abbrev inBiasBlk (c : Dev nD) (t : Fin cfg1.N) : Vec Ideal S1x192 .f32 := iblk1 V c 3 t
abbrev inBiasArr (c : Dev nD) : Vec Ideal S1x192 .f32 := V c main_v47

/-- The block is the array: the block index is zero on both axes and the block has the array's extents. -/
theorem inBiasBlk_eq (c : Dev nD) (t : Fin cfg1.N) : inBiasBlk V c t = inBiasArr V c := by
  obtain ⟨-, -, -, -, -, -, e0, e1, -, -, -, -, -, -, -⟩ := block_indices t
  funext x
  unfold inBiasBlk inBiasArr iblk1
  rw [View.read_apply]
  show V c main_v47 _ = V c main_v47 _
  refine congrArg _ ?_
  funext a
  apply Fin.ext
  match a with
  | ⟨0, _⟩ => show win1_3.index t (0 : Fin 2) * 1 + 1 * (x 0).val = (x 0).val; rw [e0]; omega
  | ⟨1, _⟩ => show win1_3.index t (1 : Fin 2) * 192 + 1 * (x 1).val = (x 1).val; rw [e1]; omega

/-- The hidden-side gate bias [1, 192]: its block at grid point t, and its array. -/
abbrev hidBiasBlk (c : Dev nD) (t : Fin cfg1.N) : Vec Ideal S1x192 .f32 := iblk1 V c 4 t
abbrev hidBiasArr (c : Dev nD) : Vec Ideal S1x192 .f32 := V c main_v48

/-- The block is the array: the block index is zero on both axes and the block has the array's extents. -/
theorem hidBiasBlk_eq (c : Dev nD) (t : Fin cfg1.N) : hidBiasBlk V c t = hidBiasArr V c := by
  obtain ⟨-, -, -, -, -, -, -, -, e0, e1, -, -, -, -, -⟩ := block_indices t
  funext x
  unfold hidBiasBlk hidBiasArr iblk1
  rw [View.read_apply]
  show V c main_v48 _ = V c main_v48 _
  refine congrArg _ ?_
  funext a
  apply Fin.ext
  match a with
  | ⟨0, _⟩ => show win1_4.index t (0 : Fin 2) * 1 + 1 * (x 0).val = (x 0).val; rw [e0]; omega
  | ⟨1, _⟩ => show win1_4.index t (1 : Fin 2) * 192 + 1 * (x 1).val = (x 1).val; rw [e1]; omega

/-- The transposed head weights [64, 1]: its block at grid point t, and its array. -/
abbrev headWBlk (c : Dev nD) (t : Fin cfg1.N) : Vec Ideal S64x1 .f32 := iblk1 V c 5 t
abbrev headWArr (c : Dev nD) : Vec Ideal S64x1 .f32 := V c main_v45

/-- The block is the array: the block index is zero on both axes and the block has the array's extents. -/
theorem headWBlk_eq (c : Dev nD) (t : Fin cfg1.N) : headWBlk V c t = headWArr V c := by
  obtain ⟨-, -, -, -, -, -, -, -, -, -, e0, e1, -, -, -⟩ := block_indices t
  funext x
  unfold headWBlk headWArr iblk1
  rw [View.read_apply]
  show V c main_v45 _ = V c main_v45 _
  refine congrArg _ ?_
  funext a
  apply Fin.ext
  match a with
  | ⟨0, _⟩ => show win1_5.index t (0 : Fin 2) * 64 + 1 * (x 0).val = (x 0).val; rw [e0]; omega
  | ⟨1, _⟩ => show win1_5.index t (1 : Fin 2) * 1 + 1 * (x 1).val = (x 1).val; rw [e1]; omega

/-- The head bias [1, 1]: its block at grid point t, and its array. -/
abbrev headBiasBlk (c : Dev nD) (t : Fin cfg1.N) : Vec Ideal S1x1 .f32 := iblk1 V c 6 t
abbrev headBiasArr (c : Dev nD) : Vec Ideal S1x1 .f32 := V c main_v49

/-- The block is the array: the block index is zero on both axes and the block has the array's extents. -/
theorem headBiasBlk_eq (c : Dev nD) (t : Fin cfg1.N) : headBiasBlk V c t = headBiasArr V c := by
  obtain ⟨-, -, -, -, -, -, -, -, -, -, -, -, e0, e1, -⟩ := block_indices t
  funext x
  unfold headBiasBlk headBiasArr iblk1
  rw [View.read_apply]
  show V c main_v49 _ = V c main_v49 _
  refine congrArg _ ?_
  funext a
  apply Fin.ext
  match a with
  | ⟨0, _⟩ => show win1_6.index t (0 : Fin 2) * 1 + 1 * (x 0).val = (x 0).val; rw [e0]; omega
  | ⟨1, _⟩ => show win1_6.index t (1 : Fin 2) * 1 + 1 * (x 1).val = (x 1).val; rw [e1]; omega

/-! ## One stored entry, and what a grid point writes back -/

/-- One stored entry against the whole arrays: when row p of the feature block is row 4000 * tv + p of the feature
    array, the stored value at row p (the output has the one column 0) is the head at that array row. -/
theorem stored_at (x0 : Vec Ideal S4000x64 .f32) (x1 : Vec Ideal S1x64 .f32) (x2 : Vec Ideal S64x192 .f32)
    (x3 x4 : Vec Ideal S1x192 .f32) (x5 : Vec Ideal S64x1 .f32) (x6 : Vec Ideal S1x1 .f32)
    (A0 : Vec Ideal S100000x64 .f32) (tv : Nat)
    (h0 : ∀ (x : S4000x64.Idx) (i : S100000x64.Idx), (i 0).val = 4000 * tv + (x 0).val → (i 1).val = (x 1).val → x0 x = A0 i)
    (j : S4000x1.Idx) (i : S100000x1.Idx) (hi : (i 0).val = 4000 * tv + (j 0).val) :
    k1_pay1 (F := Ideal) (k1_pay2 (F := Ideal) x0 x1 x2 x3 x4 x5) x6 j
      = Cert.GcnGru.headArr A0 x1 x2 x3 x4 x5 x6 i := by
  obtain ⟨p, q, rfl⟩ : ∃ (p : Fin 4000) (q : Fin 1), j = ix2 p q := ⟨j 0, j 1, eq_ix2 j⟩
  obtain rfl : q = 0 := Subsingleton.elim _ _
  obtain ⟨n, q', rfl⟩ : ∃ (n : Fin 100000) (q' : Fin 1), i = ix2 n q' := ⟨i 0, i 1, eq_ix2 i⟩
  have hn : n.val = 4000 * tv + p.val := hi
  have hrow : (fun k : Fin 64 => x0 (ix2 p k)) = fun k : Fin 64 => A0 (ix2 n k) :=
    funext fun k => h0 (ix2 p k) (ix2 n k) hn rfl
  rw [HeadPayload.pay_at, hrow]
  rfl

/-- What grid point t writes back is block t of the head over the whole arrays. -/
theorem flushed_eq (c : Dev nD) (t : Fin cfg1.N) :
    (dat1 (F := Ideal) V c).flushed 7 t
      = ((cfg1.win 7).blk t).view.read (Elt Ideal) (Cert.GcnGru.headArr (featArr V c) (featBiasArr V c) (inWArr V c) (inBiasArr V c) (hidBiasArr V c) (headWArr V c) (headBiasArr V c)) := by
  show (cfg1.win 7).cut (grid1.coords t) ((dat1 (F := Ideal) V c).after 7 t) = _
  rw [after1_7]
  unfold out1_7
  rw [View.canon_unit_zero zero_offsets]
  simp only [View.ld_unit_zero (S := S4000x64) zero_offsets, View.ld_unit_zero (S := S1x64) zero_offsets,
    View.ld_unit_zero (S := S64x192) zero_offsets, View.ld_unit_zero (S := S1x192) zero_offsets,
    View.ld_unit_zero (S := S64x1) zero_offsets, View.ld_unit_zero (S := S1x1) zero_offsets]
  obtain ⟨-, -, -, -, -, -, -, -, -, -, -, -, -, -, e70, e71⟩ := block_indices t
  funext j
  show k1_pay1 (F := Ideal) (k1_pay2 (F := Ideal) (featBlk V c t) (featBiasBlk V c t) (inWBlk V c t) (inBiasBlk V c t)
      (hidBiasBlk V c t) (headWBlk V c t)) (headBiasBlk V c t) j
    = Cert.GcnGru.headArr (featArr V c) (featBiasArr V c) (inWArr V c) (inBiasArr V c) (hidBiasArr V c) (headWArr V c) (headBiasArr V c) (((cfg1.win 7).blk t).view.emb j)
  rw [featBiasBlk_eq V c t, inWBlk_eq V c t, inBiasBlk_eq V c t, hidBiasBlk_eq V c t, headWBlk_eq V c t, headBiasBlk_eq V c t]
  refine stored_at (featBlk V c t) (featBiasArr V c) (inWArr V c) (inBiasArr V c) (hidBiasArr V c) (headWArr V c)
    (headBiasArr V c) (featArr V c) t.val (featBlk_apply V c t) j (((cfg1.win 7).blk t).view.emb j) ?_
  show win1_7.index t (0 : Fin 2) * 4000 + 1 * (j 0).val = 4000 * t.val + (j 0).val
  rw [e70]; omega

/-! ## The blocks tile the output array -/

/-- An index of the output array lies in grid point t's block exactly when each coordinate is in the block's range. -/
theorem mem_blk (t : Fin cfg1.N) (i : S100000x1.Idx) :
    i ∈ ((cfg1.win 7).blk t).view.set
      ↔ ∀ a : Fin 2, win1_7.index t a * S4000x1.size a ≤ (i a).val ∧ (i a).val < win1_7.index t a * S4000x1.size a + S4000x1.size a := by
  show i ∈ ((View.whole main_v50).slice (win1_7.rect t)).set ↔ _
  rw [View.set_slice_whole, Rect.mem_set_unit]
  exact Iff.rfl

/-- The blocks tile the output array: row r lies in the block of grid point r / 4000. -/
theorem covered (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 25 := N_1
  have ht : (i 0).val / 4000 < cfg1.N := by rw [hN]; omega
  obtain ⟨-, -, -, -, -, -, -, -, -, -, -, -, -, -, e70, e71⟩ := block_indices ⟨(i 0).val / 4000, ht⟩
  have q0 : win1_7.index ⟨(i 0).val / 4000, ht⟩ (0 : Fin 2) = (i 0).val / 4000 := e70
  refine ⟨⟨(i 0).val / 4000, ht⟩, flush1_7 _, ?_⟩
  rw [mem_blk]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [q0]; omega
  | ⟨1, _⟩ =>
    show win1_7.index ⟨(i 0).val / 4000, ht⟩ (1 : Fin 2) * 1 ≤ (i 1).val
      ∧ (i 1).val < win1_7.index ⟨(i 0).val / 4000, ht⟩ (1 : Fin 2) * 1 + 1
    rw [e71]; omega

end Blocks

/-- After the second region every entry of its output array is the head of the gated unit on the matching row of the feature
    array the region found in its first window, with the weights and biases it found in the other six. -/
theorem head_array (V : (c : Dev nD) → (b : Ref sig .tc) → Buf (Elt Ideal) ((c : Thread nD τ).loc b)) (c : Dev nD) :
    (dat1 (F := Ideal) V c).arrAt 7 cfg1.N
      = Cert.GcnGru.headArr (V c main_v43) (V c main_v46) (V c main_v44) (V c main_v47) (V c main_v48) (V c main_v45) (V c main_v49) :=
  (dat1 (F := Ideal) V c).arrAt_eq_of_cover 7
    (Cert.GcnGru.headArr (featArr V c) (featBiasArr V c) (inWArr V c) (inBiasArr V c) (hidBiasArr V c) (headWArr V c) (headBiasArr V c))
    (fun t _ => flushed_eq V c t) covered

end Cert.KernelIdeal.HeadArray

end
-- ==== Proof.KernelValue.lean ====
/-
  The kernel program's result as a function of its arguments. The first region leaves the product x * W in its output array;
  the stretch between the regions aggregates it along the edges; the second region leaves, at every node, the head of the gated
  unit on that node's aggregated row, with the weights transposed and the biases viewed as one-row arrays; the last operation
  views the one-column output as a vector. Reading the views and the transpositions at an index turns the second region's
  operand layout into the reference's own: the result is the specification's head over the aggregation of the product.
-/
import proofs.«118636_j3959959847414_1_alg».proof.Proof.HostMid
import proofs.«118636_j3959959847414_1_alg».proof.Proof.XwArray
import proofs.«118636_j3959959847414_1_alg».proof.Proof.HeadArray
import Idealize.ShloMosaic.Lib.Pipeline.Value

set_option maxRecDepth 16384

noncomputable section

namespace Cert.KernelIdeal.KernelValue

open Cert.KernelIdeal Cert.KernelIdeal.Gen Cert.KernelIdeal.HostPre Cert.KernelIdeal.HostMid
open Idealize.ShloMosaic Idealize.ShloMosaic.TcCoe Idealize.ShloMosaic.ValueIdx Idealize.SL.Sem
open Cert.GcnGru

/-! ## The views and transpositions read at an index -/

/-- Entry (0, k) of a 64-vector viewed as one row is its entry k. -/
theorem row64_at (b : FVec Ideal S64 .f32) (k : Fin 64) : shapeCast S1x64 b shapeCasts_S64_S1x64 (ix2 0 k) = b (ix1 k) :=
  shapeCast_apply b shapeCasts_S64_S1x64 (ix2 0 k) (ix1 k)
    (by rewrite [Shape.rowMajor_val_one, Shape.rowMajor_val_two]; show k.val = 0 * 64 + k.val; omega)

/-- Entry (0, q) of a 192-vector viewed as one row is its entry q. -/
theorem row192_at (b : FVec Ideal S192 .f32) (q : Fin 192) : shapeCast S1x192 b shapeCasts_S192_S1x192 (ix2 0 q) = b (ix1 q) :=
  shapeCast_apply b shapeCasts_S192_S1x192 (ix2 0 q) (ix1 q)
    (by rewrite [Shape.rowMajor_val_one, Shape.rowMajor_val_two]; show q.val = 0 * 192 + q.val; omega)

/-- The one entry of a 1-vector viewed as a one-by-one array. -/
theorem row1_at (b : FVec Ideal S1 .f32) : shapeCast S1x1 b shapeCasts_S1_S1x1 (ix2 0 0) = b (ix1 0) :=
  shapeCast_apply b shapeCasts_S1_S1x1 (ix2 0 0) (ix1 0)
    (by rewrite [Shape.rowMajor_val_one, Shape.rowMajor_val_two]; rfl)

/-- Entry n of a one-column array viewed as a vector is its entry (n, 0). -/
theorem column_at (y : FVec Ideal S100000x1 .f32) (i : S100000.Idx) :
    shapeCast S100000 y shapeCasts_S100000x1_S100000 i = y (ix2 (i 0) 0) :=
  shapeCast_apply y shapeCasts_S100000x1_S100000 i (ix2 (i 0) 0)
    (by rewrite [Shape.rowMajor_val_two, Shape.rowMajor_val_one]; show (i 0).val * 1 + 0 = (i 0).val; omega)

/-- Entry (k, q) of the transposed input weights is entry (q, k) of the input weights. -/
theorem wihT_at (w : FVec Ideal S192x64 .f32) (k : Fin 64) (q : Fin 192) :
    Cert.ReferenceIdeal.ReadP.val_main_v47 (F := Ideal) w (ix2 k q) = w (ix2 q k) := by
  rw [Cert.ReferenceIdeal.ReadP.val_main_v47_apply]
  exact congrArg w (funext fun a => Fin.ext (by match a with | ⟨0, _⟩ => rfl | ⟨1, _⟩ => rfl))

/-- Entry (j, 0) of the transposed head weights is entry (0, j) of the head weights. -/
theorem wfcT_at (w : FVec Ideal S1x64 .f32) (j : Fin 64) :
    Cert.ReferenceIdeal.ReadP.val_main_v84 (F := Ideal) w (ix2 j 0) = w (ix2 0 j) := by
  rw [Cert.ReferenceIdeal.ReadP.val_main_v84_apply]
  exact congrArg w (funext fun a => Fin.ext (by match a with | ⟨0, _⟩ => rfl | ⟨1, _⟩ => rfl))

/-! ## The two regions' output arrays, and the result -/

variable (m : (ℓ : Loc nD τ sig) → Buf (Elt Ideal) ℓ) (ρ : Dev nD → PrngReg)

/-- After the first region its output array holds the product of the two argument arrays it read. -/
theorem w4_v30 (c : Dev nD) :
    W4 m ρ c (Proc.devRef .tc main_v30) = xwArr (m ((c : Thread nD τ).loc main_arg0)) (m ((c : Thread nD τ).loc main_arg2)) := by
  refine (W4_arr m ρ c 2).trans ?_
  rw [Cert.KernelIdeal.XwArray.xw_array (V3 m ρ) c]
  show xwArr (W3 m ρ c (Proc.devRef .tc main_arg0)) (W3 m ρ c (Proc.devRef .tc main_arg2)) = _
  rw [w3_arg0, w3_arg2]

/-- After the second region its output array holds the head over the seven arrays the region read. -/
theorem w6_v50 (c : Dev nD) :
    W6 m ρ c (Proc.devRef .tc main_v50)
      = headArr (W5 m ρ c (Proc.devRef .tc main_v43)) (W5 m ρ c (Proc.devRef .tc main_v46)) (W5 m ρ c (Proc.devRef .tc main_v44))
          (W5 m ρ c (Proc.devRef .tc main_v47)) (W5 m ρ c (Proc.devRef .tc main_v48)) (W5 m ρ c (Proc.devRef .tc main_v45))
          (W5 m ρ c (Proc.devRef .tc main_v49)) :=
  (W6_arr m ρ c 7).trans (Cert.KernelIdeal.HeadArray.head_array (V5 m ρ) c)

/-- The kernel program's result: at every node the head of the gated unit on the node's row of the aggregation of x * W, with
    the weights and biases as the program was launched with them. -/
theorem result (c : Dev nD) :
    W7 m ρ c (Proc.devRef .tc main_v51)
      = headRef (Cert.ReferenceIdeal.Agg.agg (F := Ideal)
            (xwArr (m ((c : Thread nD τ).loc main_arg0)) (m ((c : Thread nD τ).loc main_arg2))) (edges m c))
          (m ((c : Thread nD τ).loc main_arg3)) (m ((c : Thread nD τ).loc main_arg4)) (m ((c : Thread nD τ).loc main_arg6))
          (m ((c : Thread nD τ).loc main_arg7)) (m ((c : Thread nD τ).loc main_arg8)) (m ((c : Thread nD τ).loc main_arg9)) := by
  rw [w7_v51, w6_v50, w5_v43, w4_v30, w5_v46, w5_v44, w5_v47, w5_v48, w5_v45, w5_v49]
  funext i
  rw [column_at]
  unfold headArr headRef
  have e3 : ∀ k : Fin 64, shapeCast S1x64 (m ((c : Thread nD τ).loc main_arg3)) shapeCasts_S64_S1x64 (ix2 0 k)
      = m ((c : Thread nD τ).loc main_arg3) (ix1 k) := fun k => row64_at _ k
  have e6 : ∀ q : Fin 192, shapeCast S1x192 (m ((c : Thread nD τ).loc main_arg6)) shapeCasts_S192_S1x192 (ix2 0 q)
      = m ((c : Thread nD τ).loc main_arg6) (ix1 q) := fun q => row192_at _ q
  have e7 : ∀ q : Fin 192, shapeCast S1x192 (m ((c : Thread nD τ).loc main_arg7)) shapeCasts_S192_S1x192 (ix2 0 q)
      = m ((c : Thread nD τ).loc main_arg7) (ix1 q) := fun q => row192_at _ q
  have e9 : shapeCast S1x1 (m ((c : Thread nD τ).loc main_arg9)) shapeCasts_S1_S1x1 (ix2 0 0)
      = m ((c : Thread nD τ).loc main_arg9) (ix1 0) := row1_at _
  simp only [e3, e6, e7, e9, wihT_at, wfcT_at]

end Cert.KernelIdeal.KernelValue

end
-- ==== Proof.RefHead.lean ====
import proofs.«118636_j3959959847414_1_alg».proof.Proof.Spec
import proofs.«118636_j3959959847414_1_alg».proof.Proof.RefRead
import Idealize.ShloMosaic.Lib.IdealHost

set_option maxRecDepth 16384

noncomputable section

namespace Cert.ReferenceIdeal.RefHead

open Cert.ReferenceIdeal Cert.ReferenceIdeal.Gen Cert.ReferenceIdeal.ReadP
open Idealize.ShloMosaic Idealize.ShloMosaic.TcCoe Idealize.ShloMosaic.ValueIdx Idealize.SL.Sem

/-! ## The first matrix product -/

/-- The reference's first matrix product is the product array. -/
theorem ref_xw (x0 : FVec Ideal S100000x12 .f32) (x2 : FVec Ideal S12x64 .f32) :
    val_main_v30 (F := Ideal) x0 x2 = Cert.GcnGru.xwArr x0 x2 := by
  funext i
  rw [val_main_v30_apply]
  unfold Cert.GcnGru.xwArr Cert.GcnGru.xwAt
  refine Finset.sum_congr rfl fun k _ => ?_
  have el : lidx_main_v30 i k = ix2 (i 0) k :=
    funext fun a => Fin.ext (by match a with | ⟨0, _⟩ => rfl | ⟨1, _⟩ => rfl)
  have er : ridx_main_v30 i k = ix2 k (i 1) :=
    funext fun a => Fin.ext (by match a with | ⟨0, _⟩ => rfl | ⟨1, _⟩ => rfl)
  rw [el, er]
  rfl

/-! ## The gate pre-activations: operations %44 to %51 -/

/-- The feature bias, repeated over the nodes, at (n, k). -/
theorem featBias_at (x3 : FVec Ideal S64 .f32) (n : Fin 100000) (k : Fin 64) :
    val_main_v45 (F := Ideal) x3 (ix2 n k) = x3 (ix1 k) := by
  rw [val_main_v45_apply, val_main_v44_apply]
  exact congrArg x3 (funext fun a => Fin.ext (by match a with | ⟨0, _⟩ => rfl))

/-- The biased aggregated features at (n, k). -/
theorem biased_at (x0 : FVec Ideal S100000x12 .f32) (x1 : IVec S2x3200000 32) (x2 : FVec Ideal S12x64 .f32)
    (x3 : FVec Ideal S64 .f32) (n : Fin 100000) (k : Fin 64) :
    val_main_v46 (F := Ideal) x0 x1 x2 x3 (ix2 n k)
      = (val_main_v43 (F := Ideal) x0 x1 x2 (ix2 n k) + x3 (ix1 k) : EReal) := by
  rw [val_main_v46_apply, featBias_at]
  rfl

/-- The transposed input weights at (k, q). -/
theorem wihT_at (x4 : FVec Ideal S192x64 .f32) (k : Fin 64) (q : Fin 192) :
    val_main_v47 (F := Ideal) x4 (ix2 k q) = x4 (ix2 q k) := by
  rw [val_main_v47_apply]
  exact congrArg x4 (funext fun a => Fin.ext (by match a with | ⟨0, _⟩ => rfl | ⟨1, _⟩ => rfl))

/-- The input bias, repeated over the nodes, at (n, q). -/
theorem inBias_at (x6 : FVec Ideal S192 .f32) (n : Fin 100000) (q : Fin 192) :
    val_main_v50 (F := Ideal) x6 (ix2 n q) = x6 (ix1 q) := by
  rw [val_main_v50_apply, val_main_v49_apply]
  exact congrArg x6 (funext fun a => Fin.ext (by match a with | ⟨0, _⟩ => rfl))

/-- Operation %51 at (n, q) is gate pre-activation q of node n. -/
theorem preAct_at (x0 : FVec Ideal S100000x12 .f32) (x1 : IVec S2x3200000 32) (x2 : FVec Ideal S12x64 .f32)
    (x3 : FVec Ideal S64 .f32) (x4 : FVec Ideal S192x64 .f32) (x6 : FVec Ideal S192 .f32) (n : Fin 100000) (q : Fin 192) :
    val_main_v51 (F := Ideal) x0 x1 x2 x3 x4 x6 (ix2 n q)
      = Cert.GcnGru.preAct (fun k => val_main_v43 (F := Ideal) x0 x1 x2 (ix2 n k)) (fun k => x3 (ix1 k))
          (fun q k => x4 (ix2 q k)) (fun q => x6 (ix1 q)) q := by
  rw [val_main_v51_apply, val_main_v48_apply, inBias_at]
  unfold Cert.GcnGru.preAct
  refine congrArg (fun s : EReal => s + x6 (ix1 q)) ?_
  refine Finset.sum_congr rfl fun k _ => ?_
  have el : lidx_main_v48 (ix2 n q) k = ix2 n k :=
    funext fun a => Fin.ext (by match a with | ⟨0, _⟩ => rfl | ⟨1, _⟩ => rfl)
  have er : ridx_main_v48 (ix2 n q) k = ix2 k q :=
    funext fun a => Fin.ext (by match a with | ⟨0, _⟩ => rfl | ⟨1, _⟩ => rfl)
  rw [el, er, biased_at, wihT_at]

/-! ## The recurrent step: operations %52 to %83 -/

/-- The reset band of the pre-activations at (n, j). -/
theorem bandLo_at (x0 : FVec Ideal S100000x12 .f32) (x1 : IVec S2x3200000 32) (x2 : FVec Ideal S12x64 .f32)
    (x3 : FVec Ideal S64 .f32) (x4 : FVec Ideal S192x64 .f32) (x6 : FVec Ideal S192 .f32) (n : Fin 100000) (j : Fin 64) :
    val_main_v52 (F := Ideal) x0 x1 x2 x3 x4 x6 (ix2 n j)
      = val_main_v51 (F := Ideal) x0 x1 x2 x3 x4 x6 (ix2 n (Cert.GcnGru.lo j)) := by
  rw [val_main_v52_apply]
  exact congrArg (val_main_v51 (F := Ideal) x0 x1 x2 x3 x4 x6)
    (funext fun a => Fin.ext (by match a with | ⟨0, _⟩ => rfl | ⟨1, _⟩ => rfl))

/-- The update band of the pre-activations at (n, j). -/
theorem bandMid_at (x0 : FVec Ideal S100000x12 .f32) (x1 : IVec S2x3200000 32) (x2 : FVec Ideal S12x64 .f32)
    (x3 : FVec Ideal S64 .f32) (x4 : FVec Ideal S192x64 .f32) (x6 : FVec Ideal S192 .f32) (n : Fin 100000) (j : Fin 64) :
    val_main_v63 (F := Ideal) x0 x1 x2 x3 x4 x6 (ix2 n j)
      = val_main_v51 (F := Ideal) x0 x1 x2 x3 x4 x6 (ix2 n (Cert.GcnGru.mid j)) := by
  rw [val_main_v63_apply]
  exact congrArg (val_main_v51 (F := Ideal) x0 x1 x2 x3 x4 x6)
    (funext fun a => Fin.ext (by match a with | ⟨0, _⟩ => rfl | ⟨1, _⟩ => rfl))

/-- The candidate band of the pre-activations at (n, j). -/
theorem bandHi_at (x0 : FVec Ideal S100000x12 .f32) (x1 : IVec S2x3200000 32) (x2 : FVec Ideal S12x64 .f32)
    (x3 : FVec Ideal S64 .f32) (x4 : FVec Ideal S192x64 .f32) (x6 : FVec Ideal S192 .f32) (n : Fin 100000) (j : Fin 64) :
    val_main_v74 (F := Ideal) x0 x1 x2 x3 x4 x6 (ix2 n j)
      = val_main_v51 (F := Ideal) x0 x1 x2 x3 x4 x6 (ix2 n (Cert.GcnGru.hi j)) := by
  rw [val_main_v74_apply]
  exact congrArg (val_main_v51 (F := Ideal) x0 x1 x2 x3 x4 x6)
    (funext fun a => Fin.ext (by match a with | ⟨0, _⟩ => rfl | ⟨1, _⟩ => rfl))

/-- The reset band of the hidden bias, repeated over the nodes, at (n, j). -/
theorem hidBiasLo_at (x7 : FVec Ideal S192 .f32) (n : Fin 100000) (j : Fin 64) :
    val_main_v55 (F := Ideal) x7 (ix2 n j) = x7 (ix1 (Cert.GcnGru.lo j)) := by
  rw [val_main_v55_apply, val_main_v54_apply, val_main_v53_apply]
  exact congrArg x7 (funext fun a => Fin.ext (by match a with | ⟨0, _⟩ => rfl))

/-- The update band of the hidden bias, repeated over the nodes, at (n, j). -/
theorem hidBiasMid_at (x7 : FVec Ideal S192 .f32) (n : Fin 100000) (j : Fin 64) :
    val_main_v66 (F := Ideal) x7 (ix2 n j) = x7 (ix1 (Cert.GcnGru.mid j)) := by
  rw [val_main_v66_apply, val_main_v65_apply, val_main_v64_apply]
  exact congrArg x7 (funext fun a => Fin.ext (by match a with | ⟨0, _⟩ => rfl))

/-- The candidate band of the hidden bias, repeated over the nodes, at (n, j). -/
theorem hidBiasHi_at (x7 : FVec Ideal S192 .f32) (n : Fin 100000) (j : Fin 64) :
    val_main_v77 (F := Ideal) x7 (ix2 n j) = x7 (ix1 (Cert.GcnGru.hi j)) := by
  rw [val_main_v77_apply, val_main_v76_apply, val_main_v75_apply]
  exact congrArg x7 (funext fun a => Fin.ext (by match a with | ⟨0, _⟩ => rfl))

/-! The four constants inside the two spelt-out logistic functions are the number one. -/

theorem one59_at (i : S100000x64.Idx) : val_main_v59 (F := Ideal) i = (1 : EReal) := by
  rw [val_main_v59_apply, val_main_cst_9_apply, Ideal.ofBits_def, Ideal.ofBits_one_f32]

theorem one61_at (i : S100000x64.Idx) : val_main_v61 (F := Ideal) i = (1 : EReal) := by
  rw [val_main_v61_apply, val_main_cst_10_apply, Ideal.ofBits_def, Ideal.ofBits_one_f32]

theorem one70_at (i : S100000x64.Idx) : val_main_v70 (F := Ideal) i = (1 : EReal) := by
  rw [val_main_v70_apply, val_main_cst_11_apply, Ideal.ofBits_def, Ideal.ofBits_one_f32]

theorem one72_at (i : S100000x64.Idx) : val_main_v72 (F := Ideal) i = (1 : EReal) := by
  rw [val_main_v72_apply, val_main_cst_12_apply, Ideal.ofBits_def, Ideal.ofBits_one_f32]

/-- The constant of `1 - z` stays the f32 word of 1.0. -/
theorem one81_at (i : S100000x64.Idx) : val_main_v81 (F := Ideal) i = Cert.GcnGru.one32 := by
  rw [val_main_v81_apply, val_main_cst_13_apply, Ideal.ofBits_def]

/-- The reset gate at (n, j): 1 / (1 + exp (-x)) is the logistic function of x. -/
theorem reset_at (x0 : FVec Ideal S100000x12 .f32) (x1 : IVec S2x3200000 32) (x2 : FVec Ideal S12x64 .f32)
    (x3 : FVec Ideal S64 .f32) (x4 : FVec Ideal S192x64 .f32) (x6 x7 : FVec Ideal S192 .f32) (n : Fin 100000) (j : Fin 64) :
    val_main_v62 (F := Ideal) x0 x1 x2 x3 x4 x6 x7 (ix2 n j)
      = Ideal.logistic (Cert.GcnGru.preAct (fun k => val_main_v43 (F := Ideal) x0 x1 x2 (ix2 n k)) (fun k => x3 (ix1 k))
          (fun q k => x4 (ix2 q k)) (fun q => x6 (ix1 q)) (Cert.GcnGru.lo j) + x7 (ix1 (Cert.GcnGru.lo j))) := by
  rw [val_main_v62_apply, val_main_v60_apply, val_main_v58_apply, val_main_v57_apply, val_main_v56_apply,
    one61_at, one59_at, bandLo_at, hidBiasLo_at, preAct_at]
  simp only [Ideal.hostDivf_def, Ideal.addf_def, Ideal.hostUnary_exp_def, Ideal.hostNegf_def, Ideal.negf_def, Ideal.logistic]

/-- The update gate at (n, j). -/
theorem update_at (x0 : FVec Ideal S100000x12 .f32) (x1 : IVec S2x3200000 32) (x2 : FVec Ideal S12x64 .f32)
    (x3 : FVec Ideal S64 .f32) (x4 : FVec Ideal S192x64 .f32) (x6 x7 : FVec Ideal S192 .f32) (n : Fin 100000) (j : Fin 64) :
    val_main_v73 (F := Ideal) x0 x1 x2 x3 x4 x6 x7 (ix2 n j)
      = Ideal.logistic (Cert.GcnGru.preAct (fun k => val_main_v43 (F := Ideal) x0 x1 x2 (ix2 n k)) (fun k => x3 (ix1 k))
          (fun q k => x4 (ix2 q k)) (fun q => x6 (ix1 q)) (Cert.GcnGru.mid j) + x7 (ix1 (Cert.GcnGru.mid j))) := by
  rw [val_main_v73_apply, val_main_v71_apply, val_main_v69_apply, val_main_v68_apply, val_main_v67_apply,
    one72_at, one70_at, bandMid_at, hidBiasMid_at, preAct_at]
  simp only [Ideal.hostDivf_def, Ideal.addf_def, Ideal.hostUnary_exp_def, Ideal.hostNegf_def, Ideal.negf_def, Ideal.logistic]

/-- The candidate state at (n, j). -/
theorem cand_at (x0 : FVec Ideal S100000x12 .f32) (x1 : IVec S2x3200000 32) (x2 : FVec Ideal S12x64 .f32)
    (x3 : FVec Ideal S64 .f32) (x4 : FVec Ideal S192x64 .f32) (x6 x7 : FVec Ideal S192 .f32) (n : Fin 100000) (j : Fin 64) :
    val_main_v80 (F := Ideal) x0 x1 x2 x3 x4 x6 x7 (ix2 n j)
      = Ideal.tanh (Cert.GcnGru.preAct (fun k => val_main_v43 (F := Ideal) x0 x1 x2 (ix2 n k)) (fun k => x3 (ix1 k))
          (fun q k => x4 (ix2 q k)) (fun q => x6 (ix1 q)) (Cert.GcnGru.hi j)
          + Ideal.logistic (Cert.GcnGru.preAct (fun k => val_main_v43 (F := Ideal) x0 x1 x2 (ix2 n k)) (fun k => x3 (ix1 k))
          (fun q k => x4 (ix2 q k)) (fun q => x6 (ix1 q)) (Cert.GcnGru.lo j) + x7 (ix1 (Cert.GcnGru.lo j))) * x7 (ix1 (Cert.GcnGru.hi j))) := by
  rw [val_main_v80_apply, val_main_v79_apply, val_main_v78_apply, reset_at, bandHi_at, hidBiasHi_at, preAct_at]
  simp only [Ideal.hostUnary_tanh_def, Ideal.addf_def, Ideal.mulf_def]

/-- Operation %83 at (n, j) is hidden unit j of node n. -/
theorem hidden_at (x0 : FVec Ideal S100000x12 .f32) (x1 : IVec S2x3200000 32) (x2 : FVec Ideal S12x64 .f32)
    (x3 : FVec Ideal S64 .f32) (x4 : FVec Ideal S192x64 .f32) (x6 x7 : FVec Ideal S192 .f32) (n : Fin 100000) (j : Fin 64) :
    val_main_v83 (F := Ideal) x0 x1 x2 x3 x4 x6 x7 (ix2 n j)
      = Cert.GcnGru.hidden (fun k => val_main_v43 (F := Ideal) x0 x1 x2 (ix2 n k)) (fun k => x3 (ix1 k))
          (fun q k => x4 (ix2 q k)) (fun q => x6 (ix1 q)) (fun q => x7 (ix1 q)) j := by
  rw [val_main_v83_apply, val_main_v82_apply, one81_at, update_at, cand_at]
  rfl

/-! ## The linear head: operations %84 to %89 -/

/-- The transposed head weights at (j, 0). -/
theorem wfcT_at (x8 : FVec Ideal S1x64 .f32) (j : Fin 64) :
    val_main_v84 (F := Ideal) x8 (ix2 j (0 : Fin 1)) = x8 (ix2 (0 : Fin 1) j) := by
  rw [val_main_v84_apply]
  exact congrArg x8 (funext fun a => Fin.ext (by match a with | ⟨0, _⟩ => rfl | ⟨1, _⟩ => rfl))

/-- The head's bias, repeated over the nodes, at (n, 0). -/
theorem headBias_at (x9 : FVec Ideal S1 .f32) (n : Fin 100000) :
    val_main_v87 (F := Ideal) x9 (ix2 n (0 : Fin 1)) = x9 (ix1 (0 : Fin 1)) := by
  rw [val_main_v87_apply, val_main_v86_apply]
  exact congrArg x9 (funext fun a => Fin.ext (by match a with | ⟨0, _⟩ => rfl))

/-- The reference's result is the head of the gated unit on each row of its aggregated features (the scatter-add's result,
    kept as it is), with the weights and biases in the reference's own layout. -/
theorem ref_head (x0 : FVec Ideal S100000x12 .f32) (x1 : IVec S2x3200000 32) (x2 : FVec Ideal S12x64 .f32) (x3 : FVec Ideal S64 .f32)
    (x4 : FVec Ideal S192x64 .f32) (x6 x7 : FVec Ideal S192 .f32) (x8 : FVec Ideal S1x64 .f32) (x9 : FVec Ideal S1 .f32) :
    val_main_v89 (F := Ideal) x0 x1 x2 x3 x4 x6 x7 x8 x9
      = Cert.GcnGru.headRef (val_main_v43 (F := Ideal) x0 x1 x2) x3 x4 x6 x7 x8 x9 := by
  funext i
  obtain ⟨n, rfl⟩ : ∃ n : Fin 100000, i = ix1 n := ⟨i 0, eq_ix1 i⟩
  have e89 : idx_main_v89 (ix1 n) = ix2 n (0 : Fin 1) :=
    funext fun a => Fin.ext (by match a with | ⟨0, _⟩ => exact Nat.div_one _ | ⟨1, _⟩ => rfl)
  rw [val_main_v89_apply, e89, val_main_v88_apply, val_main_v85_apply, headBias_at]
  unfold Cert.GcnGru.headRef Cert.GcnGru.headAt
  refine congrArg (fun s : EReal => s + x9 (ix1 (0 : Fin 1))) ?_
  refine Finset.sum_congr rfl fun j _ => ?_
  have el : lidx_main_v85 (ix2 n (0 : Fin 1)) j = ix2 n j :=
    funext fun a => Fin.ext (by match a with | ⟨0, _⟩ => rfl | ⟨1, _⟩ => rfl)
  have er : ridx_main_v85 (ix2 n (0 : Fin 1)) j = ix2 j (0 : Fin 1) :=
    funext fun a => Fin.ext (by match a with | ⟨0, _⟩ => rfl | ⟨1, _⟩ => rfl)
  rw [el, er, hidden_at, wfcT_at]

end Cert.ReferenceIdeal.RefHead

end
-- ==== Proof.lean ====
/-
  The kernel program and the reference compute, for every node of a graph, one graph-convolution layer followed by one step of
  a gated recurrent unit from a zero state and a linear head.

  Both programs build, on the host and from the edge list alone, the source and destination lists (with a self loop per node),
  the in-degrees, their inverse square roots and the per-edge weights; both gather rows of the product x * W at the sources,
  scale them and scatter-add them at the destinations. The kernel program computes x * W in a first tiled kernel (blocks of 5000
  rows) where the reference uses one matrix product, and the recurrent unit with its head in a second tiled kernel (blocks of
  4000 rows) where the reference uses host operations; at exact arithmetic a tiled product is the product, a rounding to a
  narrower float format is the identity, and the logistic function is 1 / (1 + exp (-x)), which is how the reference spells it.
  So both results are, node by node, the same function of the arguments: the head of the gated unit (Proof/Spec.lean) on the
  node's row of the aggregation (Proof/Agg.lean) of x * W. No law beyond unfolding these definitions joins the two sides, and the
  precondition is not used.
-/
import proofs.«118636_j3959959847414_1_alg».proof.Defs
import proofs.«118636_j3959959847414_1_alg».proof.Proof.Gen.Kernel
import proofs.«118636_j3959959847414_1_alg».proof.Proof.Gen.Kernel.Skeleton
import proofs.«118636_j3959959847414_1_alg».proof.Proof.Gen.Kernel.Launch
import proofs.«118636_j3959959847414_1_alg».proof.Proof.Gen.Kernel.Points
import proofs.«118636_j3959959847414_1_alg».proof.Proof.Gen.Kernel.Frame
import proofs.«118636_j3959959847414_1_alg».proof.Proof.Gen.KernelIdeal
import proofs.«118636_j3959959847414_1_alg».proof.Proof.Gen.KernelIdeal.Skeleton
import proofs.«118636_j3959959847414_1_alg».proof.Proof.Gen.KernelIdeal.Launch
import proofs.«118636_j3959959847414_1_alg».proof.Proof.Gen.KernelIdeal.Points
import proofs.«118636_j3959959847414_1_alg».proof.Proof.Gen.KernelIdeal.Frame
import proofs.«118636_j3959959847414_1_alg».proof.Proof.Gen.ReferenceIdeal
import proofs.«118636_j3959959847414_1_alg».proof.Proof.Gen.Pre_finite_inputs
import proofs.«118636_j3959959847414_1_alg».proof.Proof.RunValue
import proofs.«118636_j3959959847414_1_alg».proof.Proof.KernelValue
import proofs.«118636_j3959959847414_1_alg».proof.Proof.RefHead
import proofs.«118636_j3959959847414_1_alg».proof.Proof.Agg
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The kernel program at exact arithmetic runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result: on each side the head of the gated unit
    on each node's row of the aggregation of x * W. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result m ρ c), (h c).2⟩)
      (Cert.KernelIdeal.RunValue.run_value (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v89_eq, h0, h1, h2, h3, h4, h6, h7, h8, h9,
    Cert.ReferenceIdeal.RefHead.ref_head, Cert.ReferenceIdeal.Agg.ref_agg, Cert.ReferenceIdeal.RefHead.ref_xw]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
